-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x8 : Shape := ⟨3, ![2, 2048, 8]⟩
abbrev S8x256x256 : Shape := ⟨3, ![8, 256, 256]⟩
abbrev S_ : Shape := ⟨0, ![]⟩

class Facts : Prop where
  bcast_S_S8x256x256 : S_.BroadcastsInDim S8x256x256 (![] : Fin 0 → Fin S8x256x256.rank)
  reducesTo_S8x256x256_S_d0_1_2 : S8x256x256.ReducesTo [0, 1, 2] S_
  h_S_ : 0 < S_.numel

variable [Facts]

def fn {F : FTy → Type} [FloatOps F] (main_arg0 : IVec S2x2048x8 32) (main_arg1 : IVec S2x2048x8 32) (main_arg2 : FVec F S8x256x256 .f32) : IVec S_ 1 :=
  let main_v0 : FVec F S8x256x256 .f32 := Host.absf main_arg2
  let main_cst : FVec F S_ .f32 := constant S_ .f32 0x7F800000#32
  let main_v1 : FVec F S8x256x256 .f32 := broadcastInDim S8x256x256 ![] bcast_S_S8x256x256 main_cst
  let main_v2 : IVec S8x256x256 1 := cmpf .olt main_v0 main_v1
  let main_c : IVec S_ 1 := constantI S_ 1 1#1
  let main_v3 : IVec S_ 1 := (fun x v => Host.reduce IntOp.andi x v reducesTo_S8x256x256_S_d0_1_2 h_S_) main_v2 main_c
  main_v3
-- ==== Kernel.lean ====
abbrev S2x2048x8 : Shape := ⟨3, ![2, 2048, 8]⟩
abbrev S8x256x256 : Shape := ⟨3, ![8, 256, 256]⟩
abbrev S_ : Shape := ⟨0, ![]⟩
abbrev S2x8x2048 : Shape := ⟨3, ![2, 8, 2048]⟩
abbrev S2x2048x2048 : Shape := ⟨3, ![2, 2048, 2048]⟩
abbrev S1x512x8 : Shape := ⟨3, ![1, 512, 8]⟩
abbrev S1x8x2048 : Shape := ⟨3, ![1, 8, 2048]⟩
abbrev S1x512x2048 : Shape := ⟨3, ![1, 512, 2048]⟩
abbrev S512x2048 : Shape := ⟨2, ![512, 2048]⟩
abbrev S2048x2048 : Shape := ⟨2, ![2048, 2048]⟩
abbrev S512x256 : Shape := ⟨2, ![512, 256]⟩
abbrev S256x2048 : Shape := ⟨2, ![256, 2048]⟩
abbrev S1x512x1 : Shape := ⟨3, ![1, 512, 1]⟩
abbrev S512x1 : Shape := ⟨2, ![512, 1]⟩
abbrev S1x1x2048 : Shape := ⟨3, ![1, 1, 2048]⟩
abbrev S2048 : Shape := ⟨1, ![2048]⟩
abbrev S1x2048 : Shape := ⟨2, ![1, 2048]⟩
abbrev S1x256x256 : Shape := ⟨3, ![1, 256, 256]⟩
abbrev S256x256 : Shape := ⟨2, ![256, 256]⟩

abbrev nBuf : Space → Nat
  | .hbm => 39
  | .vmem => 11
  | .smem => 0
  | _ => 0

abbrev bufTy : (tb : Table) → Fin (tcTables nBuf tb) → BufTy
  | .hbm, ⟨0, _⟩ => ⟨S2x2048x8, .i32⟩
  | .hbm, ⟨1, _⟩ => ⟨S2x2048x8, .i32⟩
  | .hbm, ⟨2, _⟩ => ⟨S8x256x256, .f32⟩
  | .hbm, ⟨3, _⟩ => ⟨S_, .i32⟩
  | .hbm, ⟨4, _⟩ => ⟨S2x2048x8, .i32⟩
  | .hbm, ⟨5, _⟩ => ⟨S2x2048x8, .i1⟩
  | .hbm, ⟨6, _⟩ => ⟨S_, .i32⟩
  | .hbm, ⟨7, _⟩ => ⟨S2x2048x8, .i32⟩
  | .hbm, ⟨8, _⟩ => ⟨S2x2048x8, .i32⟩
  | .hbm, ⟨9, _⟩ => ⟨S2x2048x8, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S2x2048x8, .i32⟩
  | .hbm, ⟨14, _⟩ => ⟨S2x2048x8, .i32⟩
  | .hbm, ⟨15, _⟩ => ⟨S_, .i32⟩
  | .hbm, ⟨16, _⟩ => ⟨S2x2048x8, .i32⟩
  | .hbm, ⟨17, _⟩ => ⟨S2x2048x8, .i32⟩
  | .hbm, ⟨18, _⟩ => ⟨S_, .i32⟩
  | .hbm, ⟨19, _⟩ => ⟨S2x2048x8, .i32⟩
  | .hbm, ⟨20, _⟩ => ⟨S2x2048x8, .i1⟩
  | .hbm, ⟨21, _⟩ => ⟨S_, .i32⟩
  | .hbm, ⟨22, _⟩ => ⟨S2x2048x8, .i32⟩
  | .hbm, ⟨23, _⟩ => ⟨S2x2048x8, .i32⟩
  | .hbm, ⟨24, _⟩ => ⟨S2x2048x8, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S2x2048x8, .i32⟩
  | .hbm, ⟨29, _⟩ => ⟨S2x2048x8, .i32⟩
  | .hbm, ⟨30, _⟩ => ⟨S_, .i32⟩
  | .hbm, ⟨31, _⟩ => ⟨S2x2048x8, .i32⟩
  | .hbm, ⟨32, _⟩ => ⟨S2x2048x8, .i32⟩
  | .hbm, ⟨33, _⟩ => ⟨S2x8x2048, .i32⟩
  | .hbm, ⟨34, _⟩ => ⟨S8x256x256, .bf16⟩
  | .hbm, ⟨35, _⟩ => ⟨S8x256x256, .f32⟩
  | .hbm, ⟨36, _⟩ => ⟨S8x256x256, .f32⟩
  | .hbm, ⟨37, _⟩ => ⟨S8x256x256, .bf16⟩
  | .hbm, ⟨38, _⟩ => ⟨S2x2048x2048, .f32⟩
  | .local _ .vmem, ⟨0, _⟩ => ⟨S1x512x8, .i32⟩
  | .local _ .vmem, ⟨1, _⟩ => ⟨S1x512x8, .i32⟩
  | .local _ .vmem, ⟨2, _⟩ => ⟨S1x8x2048, .i32⟩
  | .local _ .vmem, ⟨3, _⟩ => ⟨S1x8x2048, .i32⟩
  | .local _ .vmem, ⟨4, _⟩ => ⟨S8x256x256, .bf16⟩
  | .local _ .vmem, ⟨5, _⟩ => ⟨S8x256x256, .bf16⟩
  | .local _ .vmem, ⟨6, _⟩ => ⟨S1x512x2048, .f32⟩
  | .local _ .vmem, ⟨7, _⟩ => ⟨S1x512x2048, .f32⟩
  | .local _ .vmem, ⟨8, _⟩ => ⟨S512x2048, .bf16⟩
  | .local _ .vmem, ⟨9, _⟩ => ⟨S512x2048, .bf16⟩
  | .local _ .vmem, ⟨10, _⟩ => ⟨S2048x2048, .bf16⟩
  | _, _ => ⟨S2x2048x8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_c_2 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v5 : Ref sig .tc := ⟨.hbm, 17, rfl⟩
abbrev main_c_3 : Ref sig .tc := ⟨.hbm, 18, rfl⟩
abbrev main_v6 : Ref sig .tc := ⟨.hbm, 19, rfl⟩
abbrev main_v7 : Ref sig .tc := ⟨.hbm, 20, rfl⟩
abbrev main_c_4 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_5 : Ref sig .tc := ⟨.hbm, 25, rfl⟩
abbrev main_c_6 : Ref sig .tc := ⟨.hbm, 26, rfl⟩
abbrev main_call3_v0 : Ref sig .tc := ⟨.hbm, 27, rfl⟩
abbrev main_call3_v1 : Ref sig .tc := ⟨.hbm, 28, rfl⟩
abbrev main_call3_v2 : Ref sig .tc := ⟨.hbm, 29, rfl⟩
abbrev main_call3_v3 : Ref sig .tc := ⟨.hbm, 30, rfl⟩
abbrev main_call3_v4 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x8 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S2x2048x8 : S_.BroadcastsInDim S2x2048x8 (![] : Fin 0 → Fin S2x2048x8.rank)
  transposes_S2x2048x8_S2x8x2048_0_2_1 : S2x2048x8.Transposes [0, 2, 1] S2x8x2048
  bitsLt_bf16_f32 : FTy.bits .bf16 < FTy.bits .f32
  iota_S512x256_d1_w32 : S512x256.Iotas .tc 32 [1]
  iota_S256x2048_d0_w32 : S256x2048.Iotas .tc 32 [0]
  inb_S1x512x8_S1x512x1_0_0_0 : ∀ a, (![0, 0, 0] : Fin 3 → Nat) a + S1x512x1.size a ≤ S1x512x8.size a
  h_S1x512x1 : 0 < S1x512x1.numel
  shapeCasts_S1x512x1_S512x1 : S1x512x1.ShapeCasts S512x1
  inb_S1x8x2048_S1x1x2048_0_0_0 : ∀ a, (![0, 0, 0] : Fin 3 → Nat) a + S1x1x2048.size a ≤ S1x8x2048.size a
  h_S1x1x2048 : 0 < S1x1x2048.numel
  shapeCasts_S1x1x2048_S2048 : S1x1x2048.ShapeCasts S2048
  broadcasts_S512x1_S512x256 : S512x1.Broadcasts S512x256
  natLt_1_32 : 1 < 32
  shapeCasts_S2048_S1x2048 : S2048.ShapeCasts S1x2048
  broadcasts_S1x2048_S256x2048 : S1x2048.Broadcasts S256x2048
  inb_S8x256x256_S1x256x256_0_0_0 : ∀ a, (![0, 0, 0] : Fin 3 → Nat) a + S1x256x256.size a ≤ S8x256x256.size a
  h_S1x256x256 : 0 < S1x256x256.numel
  shapeCasts_S1x256x256_S256x256 : S1x256x256.ShapeCasts S256x256
  inb_S512x2048_S512x256_0_0 : ∀ a, (![0, 0] : Fin 2 → Nat) a + S512x256.size a ≤ S512x2048.size a
  h_S512x256 : 0 < S512x256.numel
  shapeCasts_S512x256_S512x256 : S512x256.ShapeCasts S512x256
  packedbf16_S512x2048_S512x256_0_0 : (Rect.unit (s := S512x2048) ![0, 0] S512x256.size inb_S512x2048_S512x256_0_0).PackedRows (EltTy.packing .bf16)
  inb_S2048x2048_S256x2048_0_0 : ∀ a, (![0, 0] : Fin 2 → Nat) a + S256x2048.size a ≤ S2048x2048.size a
  h_S256x2048 : 0 < S256x2048.numel
  shapeCasts_S256x2048_S256x2048 : S256x2048.ShapeCasts S256x2048
  packedbf16_S2048x2048_S256x2048_0_0 : (Rect.unit (s := S2048x2048) ![0, 0] S256x2048.size inb_S2048x2048_S256x2048_0_0).PackedRows (EltTy.packing .bf16)
  inb_S1x512x8_S1x512x1_0_0_1 : ∀ a, (![0, 0, 1] : Fin 3 → Nat) a + S1x512x1.size a ≤ S1x512x8.size a
  inb_S1x8x2048_S1x1x2048_0_1_0 : ∀ a, (![0, 1, 0] : Fin 3 → Nat) a + S1x1x2048.size a ≤ S1x8x2048.size a
  inb_S8x256x256_S1x256x256_1_0_0 : ∀ a, (![1, 0, 0] : Fin 3 → Nat) a + S1x256x256.size a ≤ S8x256x256.size a
  inb_S512x2048_S512x256_0_256 : ∀ a, (![0, 256] : Fin 2 → Nat) a + S512x256.size a ≤ S512x2048.size a
  packedbf16_S512x2048_S512x256_0_256 : (Rect.unit (s := S512x2048) ![0, 256] S512x256.size inb_S512x2048_S512x256_0_256).PackedRows (EltTy.packing .bf16)
  inb_S2048x2048_S256x2048_256_0 : ∀ a, (![256, 0] : Fin 2 → Nat) a + S256x2048.size a ≤ S2048x2048.size a
  packedbf16_S2048x2048_S256x2048_256_0 : (Rect.unit (s := S2048x2048) ![256, 0] S256x2048.size inb_S2048x2048_S256x2048_256_0).PackedRows (EltTy.packing .bf16)
  inb_S1x512x8_S1x512x1_0_0_2 : ∀ a, (![0, 0, 2] : Fin 3 → Nat) a + S1x512x1.size a ≤ S1x512x8.size a
  inb_S1x8x2048_S1x1x2048_0_2_0 : ∀ a, (![0, 2, 0] : Fin 3 → Nat) a + S1x1x2048.size a ≤ S1x8x2048.size a
  inb_S8x256x256_S1x256x256_2_0_0 : ∀ a, (![2, 0, 0] : Fin 3 → Nat) a + S1x256x256.size a ≤ S8x256x256.size a
  inb_S512x2048_S512x256_0_512 : ∀ a, (![0, 512] : Fin 2 → Nat) a + S512x256.size a ≤ S512x2048.size a
  packedbf16_S512x2048_S512x256_0_512 : (Rect.unit (s := S512x2048) ![0, 512] S512x256.size inb_S512x2048_S512x256_0_512).PackedRows (EltTy.packing .bf16)
  inb_S2048x2048_S256x2048_512_0 : ∀ a, (![512, 0] : Fin 2 → Nat) a + S256x2048.size a ≤ S2048x2048.size a
  packedbf16_S2048x2048_S256x2048_512_0 : (Rect.unit (s := S2048x2048) ![512, 0] S256x2048.size inb_S2048x2048_S256x2048_512_0).PackedRows (EltTy.packing .bf16)
  inb_S1x512x8_S1x512x1_0_0_3 : ∀ a, (![0, 0, 3] : Fin 3 → Nat) a + S1x512x1.size a ≤ S1x512x8.size a
  inb_S1x8x2048_S1x1x2048_0_3_0 : ∀ a, (![0, 3, 0] : Fin 3 → Nat) a + S1x1x2048.size a ≤ S1x8x2048.size a
  inb_S8x256x256_S1x256x256_3_0_0 : ∀ a, (![3, 0, 0] : Fin 3 → Nat) a + S1x256x256.size a ≤ S8x256x256.size a
  inb_S512x2048_S512x256_0_768 : ∀ a, (![0, 768] : Fin 2 → Nat) a + S512x256.size a ≤ S512x2048.size a
  packedbf16_S512x2048_S512x256_0_768 : (Rect.unit (s := S512x2048) ![0, 768] S512x256.size inb_S512x2048_S512x256_0_768).PackedRows (EltTy.packing .bf16)
  inb_S2048x2048_S256x2048_768_0 : ∀ a, (![768, 0] : Fin 2 → Nat) a + S256x2048.size a ≤ S2048x2048.size a
  packedbf16_S2048x2048_S256x2048_768_0 : (Rect.unit (s := S2048x2048) ![768, 0] S256x2048.size inb_S2048x2048_S256x2048_768_0).PackedRows (EltTy.packing .bf16)
  inb_S1x512x8_S1x512x1_0_0_4 : ∀ a, (![0, 0, 4] : Fin 3 → Nat) a + S1x512x1.size a ≤ S1x512x8.size a
  inb_S1x8x2048_S1x1x2048_0_4_0 : ∀ a, (![0, 4, 0] : Fin 3 → Nat) a + S1x1x2048.size a ≤ S1x8x2048.size a
  inb_S8x256x256_S1x256x256_4_0_0 : ∀ a, (![4, 0, 0] : Fin 3 → Nat) a + S1x256x256.size a ≤ S8x256x256.size a
  inb_S512x2048_S512x256_0_1024 : ∀ a, (![0, 1024] : Fin 2 → Nat) a + S512x256.size a ≤ S512x2048.size a
  packedbf16_S512x2048_S512x256_0_1024 : (Rect.unit (s := S512x2048) ![0, 1024] S512x256.size inb_S512x2048_S512x256_0_1024).PackedRows (EltTy.packing .bf16)
  inb_S2048x2048_S256x2048_1024_0 : ∀ a, (![1024, 0] : Fin 2 → Nat) a + S256x2048.size a ≤ S2048x2048.size a
  packedbf16_S2048x2048_S256x2048_1024_0 : (Rect.unit (s := S2048x2048) ![1024, 0] S256x2048.size inb_S2048x2048_S256x2048_1024_0).PackedRows (EltTy.packing .bf16)
  inb_S1x512x8_S1x512x1_0_0_5 : ∀ a, (![0, 0, 5] : Fin 3 → Nat) a + S1x512x1.size a ≤ S1x512x8.size a
  inb_S1x8x2048_S1x1x2048_0_5_0 : ∀ a, (![0, 5, 0] : Fin 3 → Nat) a + S1x1x2048.size a ≤ S1x8x2048.size a
  inb_S8x256x256_S1x256x256_5_0_0 : ∀ a, (![5, 0, 0] : Fin 3 → Nat) a + S1x256x256.size a ≤ S8x256x256.size a
  inb_S512x2048_S512x256_0_1280 : ∀ a, (![0, 1280] : Fin 2 → Nat) a + S512x256.size a ≤ S512x2048.size a
  packedbf16_S512x2048_S512x256_0_1280 : (Rect.unit (s := S512x2048) ![0, 1280] S512x256.size inb_S512x2048_S512x256_0_1280).PackedRows (EltTy.packing .bf16)
  inb_S2048x2048_S256x2048_1280_0 : ∀ a, (![1280, 0] : Fin 2 → Nat) a + S256x2048.size a ≤ S2048x2048.size a
  packedbf16_S2048x2048_S256x2048_1280_0 : (Rect.unit (s := S2048x2048) ![1280, 0] S256x2048.size inb_S2048x2048_S256x2048_1280_0).PackedRows (EltTy.packing .bf16)
  inb_S1x512x8_S1x512x1_0_0_6 : ∀ a, (![0, 0, 6] : Fin 3 → Nat) a + S1x512x1.size a ≤ S1x512x8.size a
  inb_S1x8x2048_S1x1x2048_0_6_0 : ∀ a, (![0, 6, 0] : Fin 3 → Nat) a + S1x1x2048.size a ≤ S1x8x2048.size a
  inb_S8x256x256_S1x256x256_6_0_0 : ∀ a, (![6, 0, 0] : Fin 3 → Nat) a + S1x256x256.size a ≤ S8x256x256.size a
  inb_S512x2048_S512x256_0_1536 : ∀ a, (![0, 1536] : Fin 2 → Nat) a + S512x256.size a ≤ S512x2048.size a
  packedbf16_S512x2048_S512x256_0_1536 : (Rect.unit (s := S512x2048) ![0, 1536] S512x256.size inb_S512x2048_S512x256_0_1536).PackedRows (EltTy.packing .bf16)
  inb_S2048x2048_S256x2048_1536_0 : ∀ a, (![1536, 0] : Fin 2 → Nat) a + S256x2048.size a ≤ S2048x2048.size a
  packedbf16_S2048x2048_S256x2048_1536_0 : (Rect.unit (s := S2048x2048) ![1536, 0] S256x2048.size inb_S2048x2048_S256x2048_1536_0).PackedRows (EltTy.packing .bf16)
  inb_S1x512x8_S1x512x1_0_0_7 : ∀ a, (![0, 0, 7] : Fin 3 → Nat) a + S1x512x1.size a ≤ S1x512x8.size a
  inb_S1x8x2048_S1x1x2048_0_7_0 : ∀ a, (![0, 7, 0] : Fin 3 → Nat) a + S1x1x2048.size a ≤ S1x8x2048.size a
  inb_S8x256x256_S1x256x256_7_0_0 : ∀ a, (![7, 0, 0] : Fin 3 → Nat) a + S1x256x256.size a ≤ S8x256x256.size a
  inb_S512x2048_S512x256_0_1792 : ∀ a, (![0, 1792] : Fin 2 → Nat) a + S512x256.size a ≤ S512x2048.size a
  packedbf16_S512x2048_S512x256_0_1792 : (Rect.unit (s := S512x2048) ![0, 1792] S512x256.size inb_S512x2048_S512x256_0_1792).PackedRows (EltTy.packing .bf16)
  inb_S2048x2048_S256x2048_1792_0 : ∀ a, (![1792, 0] : Fin 2 → Nat) a + S256x2048.size a ≤ S2048x2048.size a
  packedbf16_S2048x2048_S256x2048_1792_0 : (Rect.unit (s := S2048x2048) ![1792, 0] S256x2048.size inb_S2048x2048_S256x2048_1792_0).PackedRows (EltTy.packing .bf16)
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  dot_S512x256_S256x256_S512x256_1_0_0_1_n_n_wf : DotDims.WF S512x256 S256x256 S512x256 [1] [0] [0] [1] [] []
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x8.size a ≤ S2x2048x8.size a
  hwx0_0 : ∀ i : grid0.Coords, EltTy.bits .i32 = 32 ∨ (Rect.block (s := S2x2048x8) S1x512x8.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x2048.size a ≤ S2x8x2048.size a
  hwx0_1 : ∀ i : grid0.Coords, EltTy.bits .i32 = 32 ∨ (Rect.block (s := S2x8x2048) S1x8x2048.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x256x256.size a ≤ S8x256x256.size a
  hwx0_2 : ∀ i : grid0.Coords, EltTy.bits .bf16 = 32 ∨ (Rect.block (s := S8x256x256) S8x256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x256x256.size a ≤ S8x256x256.size a
  hwx0_3 : ∀ i : grid0.Coords, EltTy.bits .bf16 = 32 ∨ (Rect.block (s := S8x256x256) S8x256x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S2x2048x2048.size a
  hwx0_4 : ∀ i : grid0.Coords, EltTy.bits .f32 = 32 ∨ (Rect.block (s := S2x2048x2048) S1x512x2048.size (cc0_transform_4 i) (hinb0_4 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v5) S1x512x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x8x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S8x256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S8x256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x2048x8 : Shape := ⟨3, ![2, 2048, 8]⟩
abbrev S8x256x256 : Shape := ⟨3, ![8, 256, 256]⟩
abbrev S8 : Shape := ⟨1, ![8]⟩
abbrev S2x2048x1x8 : Shape := ⟨4, ![2, 2048, 1, 8]⟩
abbrev S2x1x2048x8 : Shape := ⟨4, ![2, 1, 2048, 8]⟩
abbrev S_ : Shape := ⟨0, ![]⟩
abbrev S2x2048x2048x8 : Shape := ⟨4, ![2, 2048, 2048, 8]⟩
abbrev S2x2048x2048x8x1 : Shape := ⟨5, ![2, 2048, 2048, 8, 1]⟩
abbrev S2x2048x2048x8x3 : Shape := ⟨5, ![2, 2048, 2048, 8, 3]⟩
abbrev S2x2048x2048 : Shape := ⟨3, ![2, 2048, 2048]⟩

abbrev nBuf : Space → Nat
  | .hbm => 37
  | .vmem => 0
  | .smem => 0
  | _ => 0

abbrev bufTy : (tb : Table) → Fin (tcTables nBuf tb) → BufTy
  | .hbm, ⟨0, _⟩ => ⟨S2x2048x8, .i32⟩
  | .hbm, ⟨1, _⟩ => ⟨S2x2048x8, .i32⟩
  | .hbm, ⟨2, _⟩ => ⟨S8x256x256, .f32⟩
  | .hbm, ⟨3, _⟩ => ⟨S8, .i32⟩
  | .hbm, ⟨4, _⟩ => ⟨S2x2048x1x8, .i32⟩
  | .hbm, ⟨5, _⟩ => ⟨S2x1x2048x8, .i32⟩
  | .hbm, ⟨6, _⟩ => ⟨S_, .i32⟩
  | .hbm, ⟨7, _⟩ => ⟨S8, .i32⟩
  | .hbm, ⟨8, _⟩ => ⟨S8, .i1⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S8, .i32⟩
  | .hbm, ⟨13, _⟩ => ⟨S_, .i32⟩
  | .hbm, ⟨14, _⟩ => ⟨S2x2048x1x8, .i32⟩
  | .hbm, ⟨15, _⟩ => ⟨S2x2048x1x8, .i1⟩
  | .hbm, ⟨16, _⟩ => ⟨S_, .i32⟩
  | .hbm, ⟨17, _⟩ => ⟨S2x2048x1x8, .i32⟩
  | .hbm, ⟨18, _⟩ => ⟨S2x2048x1x8, .i32⟩
  | .hbm, ⟨19, _⟩ => ⟨S2x2048x1x8, .i32⟩
  | .hbm, ⟨20, _⟩ => ⟨S_, .i32⟩
  | .hbm, ⟨21, _⟩ => ⟨S2x1x2048x8, .i32⟩
  | .hbm, ⟨22, _⟩ => ⟨S2x1x2048x8, .i1⟩
  | .hbm, ⟨23, _⟩ => ⟨S_, .i32⟩
  | .hbm, ⟨24, _⟩ => ⟨S2x1x2048x8, .i32⟩
  | .hbm, ⟨25, _⟩ => ⟨S2x1x2048x8, .i32⟩
  | .hbm, ⟨26, _⟩ => ⟨S2x1x2048x8, .i32⟩
  | .hbm, ⟨27, _⟩ => ⟨S2x2048x2048x8, .i32⟩
  | .hbm, ⟨28, _⟩ => ⟨S2x2048x2048x8, .i32⟩
  | .hbm, ⟨29, _⟩ => ⟨S2x2048x2048x8, .i32⟩
  | .hbm, ⟨30, _⟩ => ⟨S2x2048x2048x8x1, .i32⟩
  | .hbm, ⟨31, _⟩ => ⟨S2x2048x2048x8x1, .i32⟩
  | .hbm, ⟨32, _⟩ => ⟨S2x2048x2048x8x1, .i32⟩
  | .hbm, ⟨33, _⟩ => ⟨S2x2048x2048x8x3, .i32⟩
  | .hbm, ⟨34, _⟩ => ⟨S2x2048x2048x8, .f32⟩
  | .hbm, ⟨35, _⟩ => ⟨S_, .f32⟩
  | .hbm, ⟨36, _⟩ => ⟨S2x2048x2048, .f32⟩
  | _, _ => ⟨S2x2048x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_c_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  bcast_S2x2048x8_S2x2048x1x8_0_1_3 : S2x2048x8.BroadcastsInDim S2x2048x1x8 (![0, 1, 3] : Fin 3 → Fin S2x2048x1x8.rank)
  bcast_S2x2048x8_S2x1x2048x8_0_2_3 : S2x2048x8.BroadcastsInDim S2x1x2048x8 (![0, 2, 3] : Fin 3 → Fin S2x1x2048x8.rank)
  bcast_S_S8 : S_.BroadcastsInDim S8 (![] : Fin 0 → Fin S8.rank)
  bcast_S_S2x2048x1x8 : S_.BroadcastsInDim S2x2048x1x8 (![] : Fin 0 → Fin S2x2048x1x8.rank)
  bcast_S_S2x1x2048x8 : S_.BroadcastsInDim S2x1x2048x8 (![] : Fin 0 → Fin S2x1x2048x8.rank)
  bcast_S8_S2x2048x2048x8_3 : S8.BroadcastsInDim S2x2048x2048x8 (![3] : Fin 1 → Fin S2x2048x2048x8.rank)
  bcast_S2x2048x1x8_S2x2048x2048x8_0_1_2_3 : S2x2048x1x8.BroadcastsInDim S2x2048x2048x8 (![0, 1, 2, 3] : Fin 4 → Fin S2x2048x2048x8.rank)
  bcast_S2x1x2048x8_S2x2048x2048x8_0_1_2_3 : S2x1x2048x8.BroadcastsInDim S2x2048x2048x8 (![0, 1, 2, 3] : Fin 4 → Fin S2x2048x2048x8.rank)
  bcast_S2x2048x2048x8_S2x2048x2048x8x1_0_1_2_3 : S2x2048x2048x8.BroadcastsInDim S2x2048x2048x8x1 (![0, 1, 2, 3] : Fin 4 → Fin S2x2048x2048x8x1.rank)
  concatenates_S2x2048x2048x8x1_S2x2048x2048x8x1_S2x2048x2048x8x1_S2x2048x2048x8x3_d4 : Shape.Concatenates [S2x2048x2048x8x1, S2x2048x2048x8x1, S2x2048x2048x8x1] S2x2048x2048x8x3 4
  reducesTo_S2x2048x2048x8_S2x2048x2048_d3 : S2x2048x2048x8.ReducesTo [3] S2x2048x2048
  h_S_ : 0 < S_.numel
  gather_S8x256x256_S2x2048x2048x8x3_S2x2048x2048x8_n_012_n_n_012_4_111_wf : GatherDims.WF S8x256x256 S2x2048x2048x8x3 S2x2048x2048x8 [] [0, 1, 2] [] [0, 1, 2] [] 4 ![1, 1, 1]

variable [Facts₀]

def gather_S8x256x256_S2x2048x2048x8x3_S2x2048x2048x8_n_012_n_n_012_4_111 : GatherDims S8x256x256 S2x2048x2048x8x3 S2x2048x2048x8 where
  offsetDims := []
  collapsedSliceDims := [0, 1, 2]
  operandBatchingDims := []
  startIndicesBatchingDims := []
  startIndexMap := [0, 1, 2]
  indexVectorDim := 4
  sliceSizes := ![1, 1, 1]
  wf := gather_S8x256x256_S2x2048x2048x8x3_S2x2048x2048x8_n_012_n_n_012_4_111_wf

class Facts : Prop extends Facts₀ where

variable [Facts]
-- ==== Proof.LibDotPlain.lean ====
/-
  The plain product of two matrices, read at one entry over the extended reals.

  A plain product of an M × K matrix by a K × N matrix has no batch axis; the left operand is contracted on its
  axis 1 and the right operand on its axis 0.  For the output entry (i, j) and the contraction position k, the left
  operand is read at (i, k) — its index keeps the output's row on axis 0 and takes the contraction position on
  axis 1 — and the right operand is read at (k, j) — its index takes the contraction position on axis 0 and keeps
  the output's column on axis 1.  The contraction has one axis, of extent K, so the sum over its index set is the sum
  over k < K.  Hence entry (i, j) of the product is Σₖ l(i, k) · r(k, j), both for the product a host program
  computes and for the product a kernel accumulates into a zero accumulator.  All of this holds for every M, K, N.
-/
import Idealize.ShloMosaic.PureOps.Ideal.Laws
import Idealize.ShloMosaic.Lib.ValueIdx

noncomputable section

namespace Cert.LibDot

open Idealize.ShloMosaic Idealize.ShloMosaic.ValueIdx

variable (M K N : Nat)

/-- Axis 0 of the left operand's index is the output's row. -/
theorem lhs_plain_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- Axis 1 of the left operand's index is the contraction position. -/
theorem lhs_plain_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- Axis 0 of the right operand's index is the contraction position. -/
theorem rhs_plain_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Axis 1 of the right operand's index is the output's column. -/
theorem rhs_plain_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- At output entry (i, j) and contraction position k the left operand is read at (i, k). -/
theorem lhsIdx_plain (i : Fin M) (j : Fin N) (k : Fin K) :
    (DotDims.plain M K N).lhsIdx (ix2 i j) ((contrEquiv1 (DotDims.plain M K N) K rfl rfl).symm k) = ix2 i k :=
  funext fun a => Fin.ext (by
    have hk := contrEquiv1_symm_val (DotDims.plain M K N) K rfl rfl k
    match a with
    | ⟨0, _⟩ => exact lhs_plain_0 M K N _ _
    | ⟨1, _⟩ => exact (lhs_plain_1 M K N _ _).trans hk)

/-- At output entry (i, j) and contraction position k the right operand is read at (k, j). -/
theorem rhsIdx_plain (i : Fin M) (j : Fin N) (k : Fin K) :
    (DotDims.plain M K N).rhsIdx (ix2 i j) ((contrEquiv1 (DotDims.plain M K N) K rfl rfl).symm k) = ix2 k j :=
  funext fun a => Fin.ext (by
    have hk := contrEquiv1_symm_val (DotDims.plain M K N) K rfl rfl k
    match a with
    | ⟨0, _⟩ => exact (rhs_plain_0 M K N _ _).trans hk
    | ⟨1, _⟩ => exact rhs_plain_1 M K N _ _)

/-- The sum over the plain product's contraction index set of the operands' products at entry (i, j) is
    Σₖ l(i, k) · r(k, j). -/
theorem sum_plain (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  refine Finset.sum_congr rfl fun k _ => ?_
  rw [lhsIdx_plain, rhsIdx_plain]

/-- Entry (i, j) of a host program's plain product: Σₖ l(i, k) · r(k, j). -/
theorem dg_plain {φ₁ φ₂ : FTy} (l : FVec Ideal ⟨2, ![M, K]⟩ φ₁) (r : FVec Ideal ⟨2, ![K, N]⟩ φ₂)
    (i : Fin M) (j : Fin N) :
    Host.dotGeneral (F := Ideal) (DotDims.plain M K N) none l r (ix2 i j)
      = ∑ k : Fin K, l (ix2 i k) * r (ix2 k j) :=
  (Ideal.dotGeneral_apply (DotDims.plain M K N) none .single l r _).trans (sum_plain M K N l r i j)

/-- Entry (i, j) of a kernel's plain product into a zero accumulator: Σₖ l(i, k) · r(k, j). -/
theorem mm_plain {φ₁ φ₂ : FTy} (l : FVec Ideal ⟨2, ![M, K]⟩ φ₁) (r : FVec Ideal ⟨2, ![K, N]⟩ φ₂)
    (i : Fin M) (j : Fin N) :
    matmul (DotDims.plain M K N) none l r (constant (F := Ideal) ⟨2, ![M, N]⟩ .f32 0x00000000#32) (ix2 i j)
      = ∑ k : Fin K, l (ix2 i k) * r (ix2 k j) :=
  (Ideal.matmul_constant_zero_apply (DotDims.plain M K N) none l r _).trans (sum_plain M K N l r i j)

end Cert.LibDot

end
-- ==== Proof.Codes.lean ====
/-
  Codes: how a 32-bit code word selects a codeword of a 256-entry codebook.

  A negative code counts from the end of the codebook (256 is added to it); the result is then clamped into
  [0, 255].  The gather of the reference clamps by reading the wrapped word as a signed integer, taking its
  non-negative part and the minimum with 255; the kernel clamps on the words themselves, by a signed maximum with 0
  and a signed minimum with 255.  Both give the same codeword number, for every 32-bit word.

  The kernel then turns a clamped word into a row of zeros and ones by comparing it with 0, 1, …, 255: the
  comparison's bit, widened to 32 bits and converted to a real number, is 1 where the word is that number and 0
  elsewhere.
-/
import Idealize.ShloMosaic.PureOps.Ideal.Laws

noncomputable section

namespace Cert.Codes

open Idealize.ShloMosaic

/-- A negative code counts from the end of the codebook. -/
def wrap (w : BitVec 32) : BitVec 32 := Scalar.select (IntOp.cmpi .slt w 0#32) (IntOp.addi w 256#32) w

/-- The codeword a code word selects: wrapped, read signed, clamped into [0, 255]. -/
def code (w : BitVec 32) : Fin 256 := ⟨min (wrap w).toInt.toNat 255, by omega⟩

/-- The kernel's clamp of a word: the signed maximum with 0, then the signed minimum with 255. -/
def clip (w : BitVec 32) : BitVec 32 := IntOp.minsi 255#32 (IntOp.maxsi 0#32 w)

/-- The word clamp is the integer clamp. -/
theorem clip_toNat (w : BitVec 32) : (clip w).toNat = min w.toInt.toNat 255 := by
  have h0 : (0#32 : BitVec 32).toInt = 0 := by decide
  have h255 : (255#32 : BitVec 32).toInt = 255 := by decide
  unfold clip IntOp.minsi IntOp.maxsi
  by_cases hneg : w.slt 0#32 = true
  · rw [if_pos hneg, if_neg (by decide : ¬ (255#32 : BitVec 32).slt 0#32 = true)]
    unfold BitVec.slt at hneg
    rw [decide_eq_true_eq, h0] at hneg
    have : w.toInt.toNat = 0 := by omega
    rw [this]; rfl
  · rw [if_neg hneg]
    unfold BitVec.slt at hneg
    rw [decide_eq_true_eq, h0] at hneg
    have hnat : w.toInt = (w.toNat : Int) := by
      have hw := w.isLt
      rw [BitVec.toInt_eq_toNat_cond] at hneg ⊢
      by_cases hc : 2 * w.toNat < 2 ^ 32
      · rw [if_pos hc]
      · rw [if_neg hc] at hneg; omega
    by_cases hbig : (255#32 : BitVec 32).slt w = true
    · rw [if_pos hbig]
      unfold BitVec.slt at hbig
      rw [decide_eq_true_eq, h255] at hbig
      show 255 = min w.toInt.toNat 255
      omega
    · rw [if_neg hbig]
      unfold BitVec.slt at hbig
      rw [decide_eq_true_eq, h255] at hbig
      omega

/-- The kernel's clamp of the wrapped word is the codeword number. -/
theorem clip_wrap_toNat (w : BitVec 32) : (clip (wrap w)).toNat = (code w).val := clip_toNat (wrap w)

/-- A clamped word is below 256. -/
theorem clip_lt (w : BitVec 32) : (clip w).toNat < 256 := by rw [clip_toNat]; omega

/-- A word equals the word of a number below 2³² exactly when its value is that number. -/
theorem cmpi_eq_ofNat (v : BitVec 32) (r : Nat) (hr : r < 2 ^ 32) :
    IntOp.cmpi .eq v (BitVec.ofNat 32 r) = 1#1 ↔ v.toNat = r := by
  have key : IntOp.cmpi .eq v (BitVec.ofNat 32 r) = BitVec.ofBool (v == BitVec.ofNat 32 r) := rfl
  rw [key]
  cases hb : (v == BitVec.ofNat 32 r)
  · have hne : v ≠ BitVec.ofNat 32 r := fun h => by rw [h] at hb; simp at hb
    constructor
    · intro h; exact absurd h (by decide)
    · intro h
      exact absurd (BitVec.eq_of_toNat_eq (by rw [BitVec.toNat_ofNat, Nat.mod_eq_of_lt hr]; exact h)) hne
  · have heq : v = BitVec.ofNat 32 r := by simpa using hb
    constructor
    · intro _; rw [heq, BitVec.toNat_ofNat, Nat.mod_eq_of_lt hr]
    · intro _; rfl

/-- The same with the number's word first. -/
theorem cmpi_ofNat_eq (v : BitVec 32) (r : Nat) (hr : r < 2 ^ 32) :
    IntOp.cmpi .eq (BitVec.ofNat 32 r) v = 1#1 ↔ r = v.toNat := by
  have key : IntOp.cmpi .eq (BitVec.ofNat 32 r) v = IntOp.cmpi .eq v (BitVec.ofNat 32 r) := by
    show BitVec.ofBool (BitVec.ofNat 32 r == v) = BitVec.ofBool (v == BitVec.ofNat 32 r)
    rw [Bool.beq_comm]
  rw [key, cmpi_eq_ofNat v r hr]
  exact eq_comm

/-- A comparison's bit, widened to 32 bits and read as a real number, is 1 when set and 0 when clear. -/
theorem bit_real (b : BitVec 1) : (((b.setWidth 32).toInt : ℝ) : EReal) = if b = 1#1 then 1 else 0 := by
  rcases (by decide : ∀ b : BitVec 1, b = 0#1 ∨ b = 1#1) b with rfl | rfl
  · simp
  · simp

end Cert.Codes

end
-- ==== Proof.Sums.lean ====
/-
  Sums of extended reals against a row of zeros and ones, and a sum over 2048 positions taken in 8 blocks of 256.

  Zero times any extended real is zero and one times it is itself, also at the infinities; so a sum whose factor is 1
  at one position and 0 at all others is the other factor at that position.  A position K below 2048 is 256·s + c for
  exactly one block s below 8 and one offset c below 256, so a sum over all positions is the sum over the blocks of
  the sums over the offsets.
-/
import Idealize.ShloMosaic.PureOps.Ideal.Laws

noncomputable section

namespace Cert.Sums

open Idealize.ShloMosaic

/-- A row that is 1 at position q and 0 elsewhere, multiplied on the left, picks the entry at q. -/
theorem sum_pick_left {n : Nat} (q : Fin n) (f : Fin n → EReal) :
    ∑ r : Fin n, (if q = r then (1 : EReal) else 0) * f r = f q := by
  rw [Finset.sum_eq_single q]
  · rw [if_pos rfl, one_mul]
  · intro r _ hr; rw [if_neg (fun h => hr h.symm), zero_mul]
  · intro h; exact absurd (Finset.mem_univ q) h

/-- The same with the row on the right. -/
theorem sum_pick_right {n : Nat} (q : Fin n) (f : Fin n → EReal) :
    ∑ r : Fin n, f r * (if r = q then (1 : EReal) else 0) = f q := by
  rw [Finset.sum_eq_single q]
  · rw [if_pos rfl, mul_one]
  · intro r _ hr; rw [if_neg hr, mul_zero]
  · intro h; exact absurd (Finset.mem_univ q) h

/-- The row given by a number q below n: 1 where the position's number is q. -/
theorem sum_pick_val_left {n : Nat} (q : Nat) (hq : q < n) (f : Fin n → EReal) :
    ∑ r : Fin n, (if q = r.val then (1 : EReal) else 0) * f r = f ⟨q, hq⟩ := by
  rw [← sum_pick_left ⟨q, hq⟩ f]
  refine Finset.sum_congr rfl fun r _ => ?_
  congr 1
  by_cases h : q = r.val
  · rw [if_pos h, if_pos (Fin.ext h)]
  · rw [if_neg h, if_neg (fun e => h (congrArg Fin.val e))]

/-- The same with the row on the right. -/
theorem sum_pick_val_right {n : Nat} (q : Nat) (hq : q < n) (f : Fin n → EReal) :
    ∑ r : Fin n, f r * (if r.val = q then (1 : EReal) else 0) = f ⟨q, hq⟩ := by
  rw [← sum_pick_right ⟨q, hq⟩ f]
  refine Finset.sum_congr rfl fun r _ => ?_
  congr 1
  by_cases h : r.val = q
  · rw [if_pos h, if_pos (Fin.ext h)]
  · rw [if_neg h, if_neg (fun e => h (congrArg Fin.val e))]

/-- Position 256·s + c of block s, offset c. -/
def pos (s : Fin 8) (c : Fin 256) : Fin 2048 := ⟨256 * s.val + c.val, by omega⟩

/-- The block of a position, -/
def blk (K : Fin 2048) : Fin 8 := ⟨K.val / 256, by have := K.isLt; omega⟩

/-- and its offset inside the block. -/
def offs (K : Fin 2048) : Fin 256 := ⟨K.val % 256, Nat.mod_lt _ (by decide)⟩

theorem blk_pos (s : Fin 8) (c : Fin 256) : blk (pos s c) = s :=
  Fin.ext (by show (256 * s.val + c.val) / 256 = s.val; have := c.isLt; omega)

theorem offs_pos (s : Fin 8) (c : Fin 256) : offs (pos s c) = c :=
  Fin.ext (by show (256 * s.val + c.val) % 256 = c.val; have := c.isLt; omega)

/-- A sum over 2048 positions is the sum over 8 blocks of the sums over their 256 offsets. -/
theorem sum_blocks (f : Fin 2048 → EReal) : ∑ K : Fin 2048, f K = ∑ s : Fin 8, ∑ c : Fin 256, f (pos s c) := by
  have e := (Equiv.sum_comp (finProdFinEquiv (m := 8) (n := 256)) f).symm
  rw [Fintype.sum_prod_type] at e
  refine e.trans (Finset.sum_congr rfl fun s _ => Finset.sum_congr rfl fun c _ => congrArg f (Fin.ext ?_))
  show c.val + 256 * s.val = 256 * s.val + c.val
  omega

end Cert.Sums

end
-- ==== Proof.Tiles.lean ====
/-
  The kernel's pieces at one grid point, entry by entry, over the extended reals.

  For one subspace the kernel compares the column of (clamped) query codes with 0, 1, …, 255 and gets a 512 × 256
  matrix of zeros and ones with exactly one 1 in each row, at the row's code.  Its product with the subspace's
  256 × 256 table slab therefore has, at (i, c), the slab's entry at (code of row i, c): the sum over r of the row's
  zeros and ones times the slab's column c picks one term.  The key codes give, in the same way, a 256 × 2048 matrix
  of zeros and ones with exactly one 1 in each column, at the column's code.

  The two last products contract over all 2048 positions at once; the second is added to the first.
-/
import proofs.«418404_j28690381537807_3_alg».proof.Proof.Gen.KernelIdeal.Skeleton
import proofs.«418404_j28690381537807_3_alg».proof.Proof.LibDotPlain
import proofs.«418404_j28690381537807_3_alg».proof.Proof.Codes
import proofs.«418404_j28690381537807_3_alg».proof.Proof.Sums
import Idealize.ShloMosaic.Lib.ValueIdx
import Idealize.ShloMosaic.Lib.ValueLayout
import Idealize.ShloMosaic.Lib.Pipeline.Value

noncomputable section

namespace Cert.KernelIdeal.Tiles

open Cert.KernelIdeal Cert.KernelIdeal.Gen Idealize.ShloMosaic Idealize.ShloMosaic.ValueIdx Cert.Codes Cert.Sums

/-- A column broadcast along the rows: an [a, 1] array broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A [1, 1, n] array cast to [n] reads, at j, the operand at (0, 0, j). -/
theorem shapeCast_11a_a_apply {α : Type} {a : ℕ} (x : (⟨3, ![1, 1, a]⟩ : Shape).Idx → α)
    (h : (⟨3, ![1, 1, a]⟩ : Shape).ShapeCasts ⟨1, ![a]⟩) (j : Fin a) :
    shapeCast ⟨1, ![a]⟩ x h (ix1 j) = x (ix3 (0 : Fin 1) (0 : Fin 1) j) :=
  shapeCast_apply x h _ _ (by
    rw [Shape.rowMajor_val_three, Shape.rowMajor_val_one]
    show (0 * 1 + 0) * a + j.val = j.val
    simp)

/-- The query side's zeros and ones: entry (i, r) is 1 exactly when row i's code is r. -/
theorem qbits_apply (qcol : Vec Ideal S1x512x1 .i32) (i : Fin 512) (r : Fin 256) :
    k0_pay1 (F := Ideal) qcol (ix2 i r) = if (qcol (ix3 0 i 0)).toNat = r.val then 1 else 0 := by
  unfold k0_pay1
  rw [truncf_apply, sitofp_apply, extui_apply]
  show ((((IntOp.cmpi .eq (broadcastTo S512x256 (shapeCast S512x1 qcol _) _ (ix2 i r))
    (iota .tc S512x256 32 [1] _ (ix2 i r))).setWidth 32).toInt : ℝ) : EReal) = _
  rw [broadcastTo_a1_ab_apply, shapeCast_1ab_ab_apply, iota_single_apply, bit_real]
  have hr : r.val < 2 ^ 32 := by have := r.isLt; omega
  by_cases h : (qcol (ix3 0 i 0)).toNat = r.val
  · rw [if_pos h, if_pos ((cmpi_eq_ofNat _ _ hr).2 h)]
  · rw [if_neg h, if_neg (fun h' => h ((cmpi_eq_ofNat _ _ hr).1 h'))]

/-- The key side's zeros and ones: entry (c, j) is 1 exactly when column j's code is c. -/
theorem kbits_apply (krow : Vec Ideal S1x1x2048 .i32) (c : Fin 256) (j : Fin 2048) :
    k0_pay4 (F := Ideal) krow (ix2 c j) = if c.val = (krow (ix3 0 0 j)).toNat then 1 else 0 := by
  unfold k0_pay4
  rw [shapeCast_self, truncf_apply, sitofp_apply, extui_apply]
  show ((((IntOp.cmpi .eq (iota .tc S256x2048 32 [0] _ (ix2 c j))
    (broadcastTo S256x2048 (shapeCast S1x2048 (shapeCast S2048 krow _) _) _ (ix2 c j))).setWidth 32).toInt : ℝ) : EReal) = _
  rw [broadcastTo_1b_ab_apply, shapeCast_a_1a_apply, shapeCast_11a_a_apply, iota_single_apply, bit_real]
  have hc : c.val < 2 ^ 32 := by have := c.isLt; omega
  by_cases h : c.val = (krow (ix3 0 0 j)).toNat
  · rw [if_pos h, if_pos ((cmpi_ofNat_eq _ _ hc).2 h)]
  · rw [if_neg h, if_neg (fun h' => h ((cmpi_ofNat_eq _ _ hc).1 h'))]

/-- One subspace's selected rows (from the first table operand): entry (i, c) is the slab's entry at (row i's code, c). -/
theorem rows_hi_apply (qcol : Vec Ideal S1x512x1 .i32) (tbl : Vec Ideal S1x256x256 .bf16)
    (i : Fin 512) (c : Fin 256) (hq : (qcol (ix3 0 i 0)).toNat < 256) :
    k0_pay2 (F := Ideal) qcol tbl (ix2 i c) = tbl (ix3 0 ⟨(qcol (ix3 0 i 0)).toNat, hq⟩ c) := by
  unfold k0_pay2
  rw [shapeCast_self, truncf_apply]
  rw [show (dot_S512x256_S256x256_S512x256_1_0_0_1_n_n : DotDims S512x256 S256x256 S512x256) = DotDims.plain 512 256 256 from rfl]
  rw [Cert.LibDot.mm_plain]
  simp only [qbits_apply, shapeCast_1ab_ab_apply]
  exact sum_pick_val_left _ hq fun k => tbl (ix3 0 k c)

/-- The same from the second table operand. -/
theorem rows_lo_apply (qcol : Vec Ideal S1x512x1 .i32) (tbl : Vec Ideal S1x256x256 .bf16)
    (i : Fin 512) (c : Fin 256) (hq : (qcol (ix3 0 i 0)).toNat < 256) :
    k0_pay3 (F := Ideal) qcol tbl (ix2 i c) = tbl (ix3 0 ⟨(qcol (ix3 0 i 0)).toNat, hq⟩ c) := by
  unfold k0_pay3
  rw [shapeCast_self, truncf_apply]
  rw [show (dot_S512x256_S256x256_S512x256_1_0_0_1_n_n : DotDims S512x256 S256x256 S512x256) = DotDims.plain 512 256 256 from rfl]
  rw [Cert.LibDot.mm_plain]
  simp only [qbits_apply, shapeCast_1ab_ab_apply]
  exact sum_pick_val_left _ hq fun k => tbl (ix3 0 k c)

/-- The first product over all 2048 positions, stored as the output block. -/
theorem first_apply (a : Vec Ideal S512x2048 .bf16) (b : Vec Ideal S2048x2048 .bf16) (i : Fin 512) (j : Fin 2048) :
    k0_pay43 (F := Ideal) a b (ix3 0 i j) = ∑ K : Fin 2048, a (ix2 i K) * b (ix2 K j) := by
  unfold k0_pay43
  rw [shapeCast_ab_1ab_apply]
  rw [show (dot_S512x2048_S2048x2048_S512x2048_1_0_0_1_n_n : DotDims S512x2048 S2048x2048 S512x2048) = DotDims.plain 512 2048 2048 from rfl]
  exact Cert.LibDot.mm_plain 512 2048 2048 a b i j

/-- The second product, added to the block read back. -/
theorem second_apply (o : Vec Ideal S1x512x2048 .f32) (a : Vec Ideal S512x2048 .bf16) (b : Vec Ideal S2048x2048 .bf16)
    (i : Fin 512) (j : Fin 2048) :
    k0_pay44 (F := Ideal) o a b (ix3 0 i j) = o (ix3 0 i j) + ∑ K : Fin 2048, a (ix2 i K) * b (ix2 K j) := by
  unfold k0_pay44
  rw [shapeCast_ab_1ab_apply, addf_apply, shapeCast_1ab_ab_apply]
  rw [show (dot_S512x2048_S2048x2048_S512x2048_1_0_0_1_n_n : DotDims S512x2048 S2048x2048 S512x2048) = DotDims.plain 512 2048 2048 from rfl]
  rw [Cert.LibDot.mm_plain]

end Cert.KernelIdeal.Tiles

end
-- ==== Proof.Block.lean ====
/-
  What one grid point of the kernel writes, entry by entry, over the extended reals.

  The body fills three scratch buffers tile by tile, one tile per subspace s = 0 … 7: columns 256·s … 256·s + 255 of
  the first two (512 × 2048) get subspace s's selected table rows, from the first and from the second table operand;
  rows 256·s … 256·s + 255 of the third (2048 × 2048) get subspace s's key-side zeros and ones.  Then it stores the
  product of the first buffer with the third as the output block, reads the block back, and adds the product of the
  second buffer with the third.

  Position 256·s + c of a product's contraction pairs column c of tile s of the left buffer with row c of tile s of
  the right one; the right one is 1 only at c = the key's code, so each block of 256 positions contributes exactly the
  table entry at (s, query code, key code).  The block is the sum over s of those entries of the first table
  operand, plus the same sum for the second.
-/
import proofs.«418404_j28690381537807_3_alg».proof.Proof.Gen.KernelIdeal.Frame
import proofs.«418404_j28690381537807_3_alg».proof.Proof.Tiles

set_option maxRecDepth 16384

noncomputable section

namespace Cert.KernelIdeal.Block

open Cert.KernelIdeal Cert.KernelIdeal.Gen Idealize.ShloMosaic Idealize.ShloMosaic.TcCoe Idealize.ShloMosaic.Tactic
open Idealize.SL.Sem Idealize.ShloMosaic.ValueIdx Cert.Codes Cert.Sums Cert.KernelIdeal.Tiles

theorem hz3 : (![0, 0, 0] : Fin 3 → Nat) = fun _ => 0 := by funext a; fin_cases a <;> rfl
theorem hz2 : (![0, 0] : Fin 2 → Nat) = fun _ => 0 := by funext a; fin_cases a <;> rfl

/-- A load of a whole buffer after a list of stores reads what the stores left. -/
theorem readCov_whole {sig : RefSig} {κ : Kind} {sp : Space} {S : Shape} {e : EltTy} {Val : EltTy → Type} [∀ e, Nonempty (Val e)]
    (v : View sig κ sp S e) (L : List (View.Piece Val S e)) {off : Fin S.rank → Nat} (h : off = fun _ => 0)
    (inb : ∀ a, off a + S.size a ≤ S.size a) :
    v.readCov L (Rect.unit off S.size inb).toLoadRect = View.canon L := by
  rw [View.readCov_eq_canon']; exact View.ld_unit_zero h inb (View.canon L)

section AnyInstance

variable {F : FTy → Type} [FloatOps F]

/-- The first scratch buffer's eight tiles, last stored first: tile s, at columns 256·s …, holds subspace s's selected rows of the first table operand. -/
def hiTiles (x0 : Vec F S1x512x8 .i32) (x2 : Vec F S8x256x256 .bf16) : List (View.Piece (Elt F) S512x2048 .bf16) :=
  [
    ⟨Rect.unit ![0, 1792] S512x256.size inb_S512x2048_S512x256_0_1792, k0_pay2 (View.ld x0 (Rect.unit ![0, 0, 7] S1x512x1.size inb_S1x512x8_S1x512x1_0_0_7)) (View.ld x2 (Rect.unit ![7, 0, 0] S1x256x256.size inb_S8x256x256_S1x256x256_7_0_0))⟩,
    ⟨Rect.unit ![0, 1536] S512x256.size inb_S512x2048_S512x256_0_1536, k0_pay2 (View.ld x0 (Rect.unit ![0, 0, 6] S1x512x1.size inb_S1x512x8_S1x512x1_0_0_6)) (View.ld x2 (Rect.unit ![6, 0, 0] S1x256x256.size inb_S8x256x256_S1x256x256_6_0_0))⟩,
    ⟨Rect.unit ![0, 1280] S512x256.size inb_S512x2048_S512x256_0_1280, k0_pay2 (View.ld x0 (Rect.unit ![0, 0, 5] S1x512x1.size inb_S1x512x8_S1x512x1_0_0_5)) (View.ld x2 (Rect.unit ![5, 0, 0] S1x256x256.size inb_S8x256x256_S1x256x256_5_0_0))⟩,
    ⟨Rect.unit ![0, 1024] S512x256.size inb_S512x2048_S512x256_0_1024, k0_pay2 (View.ld x0 (Rect.unit ![0, 0, 4] S1x512x1.size inb_S1x512x8_S1x512x1_0_0_4)) (View.ld x2 (Rect.unit ![4, 0, 0] S1x256x256.size inb_S8x256x256_S1x256x256_4_0_0))⟩,
    ⟨Rect.unit ![0, 768] S512x256.size inb_S512x2048_S512x256_0_768, k0_pay2 (View.ld x0 (Rect.unit ![0, 0, 3] S1x512x1.size inb_S1x512x8_S1x512x1_0_0_3)) (View.ld x2 (Rect.unit ![3, 0, 0] S1x256x256.size inb_S8x256x256_S1x256x256_3_0_0))⟩,
    ⟨Rect.unit ![0, 512] S512x256.size inb_S512x2048_S512x256_0_512, k0_pay2 (View.ld x0 (Rect.unit ![0, 0, 2] S1x512x1.size inb_S1x512x8_S1x512x1_0_0_2)) (View.ld x2 (Rect.unit ![2, 0, 0] S1x256x256.size inb_S8x256x256_S1x256x256_2_0_0))⟩,
    ⟨Rect.unit ![0, 256] S512x256.size inb_S512x2048_S512x256_0_256, k0_pay2 (View.ld x0 (Rect.unit ![0, 0, 1] S1x512x1.size inb_S1x512x8_S1x512x1_0_0_1)) (View.ld x2 (Rect.unit ![1, 0, 0] S1x256x256.size inb_S8x256x256_S1x256x256_1_0_0))⟩,
    ⟨Rect.unit ![0, 0] S512x256.size inb_S512x2048_S512x256_0_0, k0_pay2 (View.ld x0 (Rect.unit ![0, 0, 0] S1x512x1.size inb_S1x512x8_S1x512x1_0_0_0)) (View.ld x2 (Rect.unit ![0, 0, 0] S1x256x256.size inb_S8x256x256_S1x256x256_0_0_0))⟩ ]

/-- The second scratch buffer's eight tiles: the same rows of the second table operand. -/
def loTiles (x0 : Vec F S1x512x8 .i32) (x3 : Vec F S8x256x256 .bf16) : List (View.Piece (Elt F) S512x2048 .bf16) :=
  [
    ⟨Rect.unit ![0, 1792] S512x256.size inb_S512x2048_S512x256_0_1792, k0_pay3 (View.ld x0 (Rect.unit ![0, 0, 7] S1x512x1.size inb_S1x512x8_S1x512x1_0_0_7)) (View.ld x3 (Rect.unit ![7, 0, 0] S1x256x256.size inb_S8x256x256_S1x256x256_7_0_0))⟩,
    ⟨Rect.unit ![0, 1536] S512x256.size inb_S512x2048_S512x256_0_1536, k0_pay3 (View.ld x0 (Rect.unit ![0, 0, 6] S1x512x1.size inb_S1x512x8_S1x512x1_0_0_6)) (View.ld x3 (Rect.unit ![6, 0, 0] S1x256x256.size inb_S8x256x256_S1x256x256_6_0_0))⟩,
    ⟨Rect.unit ![0, 1280] S512x256.size inb_S512x2048_S512x256_0_1280, k0_pay3 (View.ld x0 (Rect.unit ![0, 0, 5] S1x512x1.size inb_S1x512x8_S1x512x1_0_0_5)) (View.ld x3 (Rect.unit ![5, 0, 0] S1x256x256.size inb_S8x256x256_S1x256x256_5_0_0))⟩,
    ⟨Rect.unit ![0, 1024] S512x256.size inb_S512x2048_S512x256_0_1024, k0_pay3 (View.ld x0 (Rect.unit ![0, 0, 4] S1x512x1.size inb_S1x512x8_S1x512x1_0_0_4)) (View.ld x3 (Rect.unit ![4, 0, 0] S1x256x256.size inb_S8x256x256_S1x256x256_4_0_0))⟩,
    ⟨Rect.unit ![0, 768] S512x256.size inb_S512x2048_S512x256_0_768, k0_pay3 (View.ld x0 (Rect.unit ![0, 0, 3] S1x512x1.size inb_S1x512x8_S1x512x1_0_0_3)) (View.ld x3 (Rect.unit ![3, 0, 0] S1x256x256.size inb_S8x256x256_S1x256x256_3_0_0))⟩,
    ⟨Rect.unit ![0, 512] S512x256.size inb_S512x2048_S512x256_0_512, k0_pay3 (View.ld x0 (Rect.unit ![0, 0, 2] S1x512x1.size inb_S1x512x8_S1x512x1_0_0_2)) (View.ld x3 (Rect.unit ![2, 0, 0] S1x256x256.size inb_S8x256x256_S1x256x256_2_0_0))⟩,
    ⟨Rect.unit ![0, 256] S512x256.size inb_S512x2048_S512x256_0_256, k0_pay3 (View.ld x0 (Rect.unit ![0, 0, 1] S1x512x1.size inb_S1x512x8_S1x512x1_0_0_1)) (View.ld x3 (Rect.unit ![1, 0, 0] S1x256x256.size inb_S8x256x256_S1x256x256_1_0_0))⟩,
    ⟨Rect.unit ![0, 0] S512x256.size inb_S512x2048_S512x256_0_0, k0_pay3 (View.ld x0 (Rect.unit ![0, 0, 0] S1x512x1.size inb_S1x512x8_S1x512x1_0_0_0)) (View.ld x3 (Rect.unit ![0, 0, 0] S1x256x256.size inb_S8x256x256_S1x256x256_0_0_0))⟩ ]

/-- The third scratch buffer's eight tiles: tile s, at rows 256·s …, holds subspace s's key-side zeros and ones. -/
def keyTiles (x1 : Vec F S1x8x2048 .i32) : List (View.Piece (Elt F) S2048x2048 .bf16) :=
  [
    ⟨Rect.unit ![1792, 0] S256x2048.size inb_S2048x2048_S256x2048_1792_0, k0_pay4 (View.ld x1 (Rect.unit ![0, 7, 0] S1x1x2048.size inb_S1x8x2048_S1x1x2048_0_7_0))⟩,
    ⟨Rect.unit ![1536, 0] S256x2048.size inb_S2048x2048_S256x2048_1536_0, k0_pay4 (View.ld x1 (Rect.unit ![0, 6, 0] S1x1x2048.size inb_S1x8x2048_S1x1x2048_0_6_0))⟩,
    ⟨Rect.unit ![1280, 0] S256x2048.size inb_S2048x2048_S256x2048_1280_0, k0_pay4 (View.ld x1 (Rect.unit ![0, 5, 0] S1x1x2048.size inb_S1x8x2048_S1x1x2048_0_5_0))⟩,
    ⟨Rect.unit ![1024, 0] S256x2048.size inb_S2048x2048_S256x2048_1024_0, k0_pay4 (View.ld x1 (Rect.unit ![0, 4, 0] S1x1x2048.size inb_S1x8x2048_S1x1x2048_0_4_0))⟩,
    ⟨Rect.unit ![768, 0] S256x2048.size inb_S2048x2048_S256x2048_768_0, k0_pay4 (View.ld x1 (Rect.unit ![0, 3, 0] S1x1x2048.size inb_S1x8x2048_S1x1x2048_0_3_0))⟩,
    ⟨Rect.unit ![512, 0] S256x2048.size inb_S2048x2048_S256x2048_512_0, k0_pay4 (View.ld x1 (Rect.unit ![0, 2, 0] S1x1x2048.size inb_S1x8x2048_S1x1x2048_0_2_0))⟩,
    ⟨Rect.unit ![256, 0] S256x2048.size inb_S2048x2048_S256x2048_256_0, k0_pay4 (View.ld x1 (Rect.unit ![0, 1, 0] S1x1x2048.size inb_S1x8x2048_S1x1x2048_0_1_0))⟩,
    ⟨Rect.unit ![0, 0] S256x2048.size inb_S2048x2048_S256x2048_0_0, k0_pay4 (View.ld x1 (Rect.unit ![0, 0, 0] S1x1x2048.size inb_S1x8x2048_S1x1x2048_0_0_0))⟩ ]

/-- What the body leaves in the output block: the second product added to the first, over what the three scratch
    buffers hold after their eight tiles each. -/
theorem out_eq (c : Dev nD) (i : grid0.Coords) (arg2 : Memref sig .tc .vmem S1x512x8 .i32) (harg2 : arg2.IsWhole) (arg3 : Memref sig .tc .vmem S1x8x2048 .i32) (harg3 : arg3.IsWhole) (arg4 : Memref sig .tc .vmem S8x256x256 .bf16) (harg4 : arg4.IsWhole) (arg5 : Memref sig .tc .vmem S8x256x256 .bf16) (harg5 : arg5.IsWhole) (arg6 : Memref sig .tc .vmem S1x512x2048 .f32) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S2048x2048 .bf16) (harg9 : arg9.IsWhole) (x0 : Vec F S1x512x8 .i32) (x1 : Vec F S1x8x2048 .i32) (x2 : Vec F S8x256x256 .bf16) (x3 : Vec F S8x256x256 .bf16) :
    out0_A_4 (F := F) c i arg2 harg2 arg3 harg3 arg4 harg4 arg5 harg5 arg6 harg6 arg7 harg7 arg8 harg8 arg9 harg9 x0 x1 x2 x3 =
      k0_pay44 (k0_pay43 (View.canon (hiTiles x0 x2)) (View.canon (keyTiles x1))) (View.canon (loTiles x0 x3)) (View.canon (keyTiles x1)) := by
  unfold out0_A_4
  rw [View.read_writes_eq_canon _ _ _ (cover0_A_4 c i arg2 harg2 arg3 harg3 arg4 harg4 arg5 harg5 arg6 harg6 arg7 harg7 arg8 harg8 arg9 harg9 x0 x1 x2 x3)]
  unfold kernelRun0_A
  dsimp only
  sl_unfold_words
  rw [View.canon_cons_unit_zero (S := S1x512x2048) hz3]
  simp only [View.readAt_eq_ld, harg2.read_unread, harg3.read_unread, harg4.read_unread, harg5.read_unread]
  rw [View.readCov_unit_zero (S := S1x512x2048) _ hz3]
  simp only [readCov_whole (S := S512x2048) _ _ hz2, readCov_whole (S := S2048x2048) _ _ hz2]
  rfl

end AnyInstance

/-! ## Over the extended reals -/

/-- The codeword number a clamped word names (a clamped word is below 256). -/
def cw (w : BitVec 32) : Fin 256 := ⟨w.toNat % 256, Nat.mod_lt _ (by decide)⟩

theorem cw_of_lt (w : BitVec 32) (h : w.toNat < 256) : cw w = ⟨w.toNat, h⟩ := Fin.ext (Nat.mod_eq_of_lt h)

variable (x0 : Vec Ideal S1x512x8 .i32) (x1 : Vec Ideal S1x8x2048 .i32)

/-- Subspace s's column of the query codes block. -/
theorem ld_q (s : Fin 8) (off : Fin 3 → Nat) (h : off = ![0, 0, s.val])
    (inb : ∀ a, off a + S1x512x1.size a ≤ S1x512x8.size a) (i : Fin 512) :
    View.ld x0 (Rect.unit off S1x512x1.size inb) (ix3 0 i 0) = x0 (ix3 0 i s) := by
  subst h
  show x0 _ = x0 _
  refine congrArg x0 (funext fun a => Fin.ext ?_)
  match a with
  | ⟨0, _⟩ => rfl
  | ⟨1, _⟩ => show 0 + 1 * i.val = i.val; omega
  | ⟨2, _⟩ => show s.val + 1 * 0 = s.val; omega

/-- Subspace s's row of the key codes block. -/
theorem ld_k (s : Fin 8) (off : Fin 3 → Nat) (h : off = ![0, s.val, 0])
    (inb : ∀ a, off a + S1x1x2048.size a ≤ S1x8x2048.size a) (j : Fin 2048) :
    View.ld x1 (Rect.unit off S1x1x2048.size inb) (ix3 0 0 j) = x1 (ix3 0 s j) := by
  subst h
  show x1 _ = x1 _
  refine congrArg x1 (funext fun a => Fin.ext ?_)
  match a with
  | ⟨0, _⟩ => rfl
  | ⟨1, _⟩ => show s.val + 1 * 0 = s.val; omega
  | ⟨2, _⟩ => show 0 + 1 * j.val = j.val; omega

/-- Subspace s's slab of a table operand. -/
theorem ld_t (T : Vec Ideal S8x256x256 .bf16) (s : Fin 8) (off : Fin 3 → Nat) (h : off = ![s.val, 0, 0])
    (inb : ∀ a, off a + S1x256x256.size a ≤ S8x256x256.size a) (r c : Fin 256) :
    View.ld T (Rect.unit off S1x256x256.size inb) (ix3 0 r c) = T (ix3 s r c) := by
  subst h
  show T _ = T _
  refine congrArg T (funext fun a => Fin.ext ?_)
  match a with
  | ⟨0, _⟩ => show s.val + 1 * 0 = s.val; omega
  | ⟨1, _⟩ => show 0 + 1 * r.val = r.val; omega
  | ⟨2, _⟩ => show 0 + 1 * c.val = c.val; omega

/-- Entry (i, c) of the tile at columns 256·s … sits at (i, 256·s + c). -/
theorem emb_cols (s : Fin 8) (off : Fin 2 → Nat) (h : off = ![0, 256 * s.val])
    (inb : ∀ a, off a + S512x256.size a ≤ S512x2048.size a) (i : Fin 512) (c : Fin 256) :
    (Rect.unit (s := S512x2048) off S512x256.size inb).emb (ix2 i c) = ix2 i (pos s c) := by
  subst h
  refine funext fun a => Fin.ext ?_
  match a with
  | ⟨0, _⟩ => show 0 + 1 * i.val = i.val; omega
  | ⟨1, _⟩ => show 256 * s.val + 1 * c.val = 256 * s.val + c.val; omega

/-- Entry (c, j) of the tile at rows 256·s … sits at (256·s + c, j). -/
theorem emb_rows (s : Fin 8) (off : Fin 2 → Nat) (h : off = ![256 * s.val, 0])
    (inb : ∀ a, off a + S256x2048.size a ≤ S2048x2048.size a) (c : Fin 256) (j : Fin 2048) :
    (Rect.unit (s := S2048x2048) off S256x2048.size inb).emb (ix2 c j) = ix2 (pos s c) j := by
  subst h
  refine funext fun a => Fin.ext ?_
  match a with
  | ⟨0, _⟩ => show 256 * s.val + 1 * c.val = 256 * s.val + c.val; omega
  | ⟨1, _⟩ => show 0 + 1 * j.val = j.val; omega

/-- What a row-selection buffer holds: at (i, K), with K in block s at offset c, the table's entry at
    (s, row i's code in subspace s, c). -/
def rowsOf (T : Vec Ideal S8x256x256 .bf16) : S512x2048.Idx → EReal := fun y =>
  T (ix3 (blk (y 1)) (cw (x0 (ix3 0 (y 0) (blk (y 1))))) (offs (y 1)))

theorem rowsOf_pos (T : Vec Ideal S8x256x256 .bf16) (i : Fin 512) (s : Fin 8) (c : Fin 256) :
    rowsOf x0 T (ix2 i (pos s c)) = T (ix3 s (cw (x0 (ix3 0 i s))) c) := by
  show T (ix3 (blk (pos s c)) (cw (x0 (ix3 0 i (blk (pos s c))))) (offs (pos s c))) = _
  rw [blk_pos, offs_pos]

/-- What the key buffer holds: at (K, j), with K in block s at offset c, 1 when column j's code in subspace s is c,
    else 0. -/
def keysOf : S2048x2048.Idx → EReal := fun y =>
  if (offs (y 0)).val = (x1 (ix3 0 (blk (y 0)) (y 1))).toNat then 1 else 0

theorem keysOf_pos (s : Fin 8) (c : Fin 256) (j : Fin 2048) :
    keysOf x1 (ix2 (pos s c) j) = if c.val = (x1 (ix3 0 s j)).toNat then 1 else 0 := by
  show (if (offs (pos s c)).val = (x1 (ix3 0 (blk (pos s c)) j)).toNat then (1 : EReal) else 0) = _
  rw [blk_pos, offs_pos]

variable (hq : ∀ (i : Fin 512) (s : Fin 8), (x0 (ix3 0 i s)).toNat < 256)

include hq in
/-- Tile s of the first buffer agrees with `rowsOf` of the first table operand; -/
theorem hi_tile (T : Vec Ideal S8x256x256 .bf16) (s : Fin 8)
    (roff : Fin 2 → Nat) (hr : roff = ![0, 256 * s.val]) (rinb : ∀ a, roff a + S512x256.size a ≤ S512x2048.size a)
    (qoff : Fin 3 → Nat) (hqo : qoff = ![0, 0, s.val]) (qinb : ∀ a, qoff a + S1x512x1.size a ≤ S1x512x8.size a)
    (toff : Fin 3 → Nat) (hto : toff = ![s.val, 0, 0]) (tinb : ∀ a, toff a + S1x256x256.size a ≤ S8x256x256.size a)
    (x : S512x256.Idx) :
    k0_pay2 (F := Ideal) (View.ld x0 (Rect.unit qoff S1x512x1.size qinb)) (View.ld T (Rect.unit toff S1x256x256.size tinb)) x
      = rowsOf x0 T ((Rect.unit (s := S512x2048) roff S512x256.size rinb).emb x) := by
  obtain ⟨i, c, rfl⟩ : ∃ (i : Fin 512) (c : Fin 256), x = ix2 i c := ⟨x 0, x 1, eq_ix2 x⟩
  have hqi : (View.ld x0 (Rect.unit qoff S1x512x1.size qinb) (ix3 0 i 0)).toNat < 256 := by
    rw [ld_q x0 s qoff hqo qinb i]; exact hq i s
  rw [rows_hi_apply _ _ i c hqi, ld_t T s toff hto tinb, emb_cols s roff hr rinb i c, rowsOf_pos]
  refine congrArg (fun r => T (ix3 s r c)) ?_
  rw [cw_of_lt _ (hq i s)]
  exact Fin.ext (congrArg BitVec.toNat (ld_q x0 s qoff hqo qinb i))

include hq in
/-- tile s of the second with `rowsOf` of the second. -/
theorem lo_tile (T : Vec Ideal S8x256x256 .bf16) (s : Fin 8)
    (roff : Fin 2 → Nat) (hr : roff = ![0, 256 * s.val]) (rinb : ∀ a, roff a + S512x256.size a ≤ S512x2048.size a)
    (qoff : Fin 3 → Nat) (hqo : qoff = ![0, 0, s.val]) (qinb : ∀ a, qoff a + S1x512x1.size a ≤ S1x512x8.size a)
    (toff : Fin 3 → Nat) (hto : toff = ![s.val, 0, 0]) (tinb : ∀ a, toff a + S1x256x256.size a ≤ S8x256x256.size a)
    (x : S512x256.Idx) :
    k0_pay3 (F := Ideal) (View.ld x0 (Rect.unit qoff S1x512x1.size qinb)) (View.ld T (Rect.unit toff S1x256x256.size tinb)) x
      = rowsOf x0 T ((Rect.unit (s := S512x2048) roff S512x256.size rinb).emb x) := by
  obtain ⟨i, c, rfl⟩ : ∃ (i : Fin 512) (c : Fin 256), x = ix2 i c := ⟨x 0, x 1, eq_ix2 x⟩
  have hqi : (View.ld x0 (Rect.unit qoff S1x512x1.size qinb) (ix3 0 i 0)).toNat < 256 := by
    rw [ld_q x0 s qoff hqo qinb i]; exact hq i s
  rw [rows_lo_apply _ _ i c hqi, ld_t T s toff hto tinb, emb_cols s roff hr rinb i c, rowsOf_pos]
  refine congrArg (fun r => T (ix3 s r c)) ?_
  rw [cw_of_lt _ (hq i s)]
  exact Fin.ext (congrArg BitVec.toNat (ld_q x0 s qoff hqo qinb i))

/-- Tile s of the key buffer agrees with `keysOf`. -/
theorem key_tile (s : Fin 8)
    (roff : Fin 2 → Nat) (hr : roff = ![256 * s.val, 0]) (rinb : ∀ a, roff a + S256x2048.size a ≤ S2048x2048.size a)
    (koff : Fin 3 → Nat) (hko : koff = ![0, s.val, 0]) (kinb : ∀ a, koff a + S1x1x2048.size a ≤ S1x8x2048.size a)
    (x : S256x2048.Idx) :
    k0_pay4 (F := Ideal) (View.ld x1 (Rect.unit koff S1x1x2048.size kinb)) x
      = keysOf x1 ((Rect.unit (s := S2048x2048) roff S256x2048.size rinb).emb x) := by
  obtain ⟨c, j, rfl⟩ : ∃ (c : Fin 256) (j : Fin 2048), x = ix2 c j := ⟨x 0, x 1, eq_ix2 x⟩
  rw [kbits_apply, ld_k x1 s koff hko kinb j, emb_rows s roff hr rinb c j, keysOf_pos]

include hq in
/-- The first buffer, after its eight tiles, holds `rowsOf` of the first table operand everywhere; -/
theorem hi_holds (x2 : Vec Ideal S8x256x256 .bf16) (i : Fin 512) (s : Fin 8) (c : Fin 256) :
    View.canon (hiTiles x0 x2) (ix2 i (pos s c)) = x2 (ix3 s (cw (x0 (ix3 0 i s))) c) := by
  rw [← rowsOf_pos x0 x2 i s c]
  refine View.canon_apply_of_pieces (rowsOf x0 x2) (hiTiles x0 x2) ?_ _ ?_
  · intro p hp
    unfold hiTiles at hp
    simp only [List.mem_cons, List.not_mem_nil, or_false] at hp
    rcases hp with rfl | rfl | rfl | rfl | rfl | rfl | rfl | rfl
    · exact fun x => hi_tile x0 hq x2 ⟨7, by decide⟩ ![0, 1792] (by decide) inb_S512x2048_S512x256_0_1792 ![0, 0, 7] (by decide) inb_S1x512x8_S1x512x1_0_0_7 ![7, 0, 0] (by decide) inb_S8x256x256_S1x256x256_7_0_0 x
    · exact fun x => hi_tile x0 hq x2 ⟨6, by decide⟩ ![0, 1536] (by decide) inb_S512x2048_S512x256_0_1536 ![0, 0, 6] (by decide) inb_S1x512x8_S1x512x1_0_0_6 ![6, 0, 0] (by decide) inb_S8x256x256_S1x256x256_6_0_0 x
    · exact fun x => hi_tile x0 hq x2 ⟨5, by decide⟩ ![0, 1280] (by decide) inb_S512x2048_S512x256_0_1280 ![0, 0, 5] (by decide) inb_S1x512x8_S1x512x1_0_0_5 ![5, 0, 0] (by decide) inb_S8x256x256_S1x256x256_5_0_0 x
    · exact fun x => hi_tile x0 hq x2 ⟨4, by decide⟩ ![0, 1024] (by decide) inb_S512x2048_S512x256_0_1024 ![0, 0, 4] (by decide) inb_S1x512x8_S1x512x1_0_0_4 ![4, 0, 0] (by decide) inb_S8x256x256_S1x256x256_4_0_0 x
    · exact fun x => hi_tile x0 hq x2 ⟨3, by decide⟩ ![0, 768] (by decide) inb_S512x2048_S512x256_0_768 ![0, 0, 3] (by decide) inb_S1x512x8_S1x512x1_0_0_3 ![3, 0, 0] (by decide) inb_S8x256x256_S1x256x256_3_0_0 x
    · exact fun x => hi_tile x0 hq x2 ⟨2, by decide⟩ ![0, 512] (by decide) inb_S512x2048_S512x256_0_512 ![0, 0, 2] (by decide) inb_S1x512x8_S1x512x1_0_0_2 ![2, 0, 0] (by decide) inb_S8x256x256_S1x256x256_2_0_0 x
    · exact fun x => hi_tile x0 hq x2 ⟨1, by decide⟩ ![0, 256] (by decide) inb_S512x2048_S512x256_0_256 ![0, 0, 1] (by decide) inb_S1x512x8_S1x512x1_0_0_1 ![1, 0, 0] (by decide) inb_S8x256x256_S1x256x256_1_0_0 x
    · exact fun x => hi_tile x0 hq x2 ⟨0, by decide⟩ ![0, 0] (by decide) inb_S512x2048_S512x256_0_0 ![0, 0, 0] (by decide) inb_S1x512x8_S1x512x1_0_0_0 ![0, 0, 0] (by decide) inb_S8x256x256_S1x256x256_0_0_0 x
  · unfold hiTiles
    fin_cases s
    · exact ⟨_, List.Mem.tail _ (List.Mem.tail _ (List.Mem.tail _ (List.Mem.tail _ (List.Mem.tail _ (List.Mem.tail _ (List.Mem.tail _ (List.Mem.head _))))))), (Rect.mem_set_unit (s := S512x2048) (off := ![0, 0]) (size := S512x256.size) (inb := inb_S512x2048_S512x256_0_0)).2 fun a => match a with
        | ⟨0, _⟩ => ⟨Nat.zero_le _, by show i.val < 0 + 512; omega⟩
        | ⟨1, _⟩ => ⟨by show (0 : ℕ) ≤ 256 * 0 + c.val; omega, by show 256 * 0 + c.val < 0 + 256; omega⟩⟩
    · exact ⟨_, List.Mem.tail _ (List.Mem.tail _ (List.Mem.tail _ (List.Mem.tail _ (List.Mem.tail _ (List.Mem.tail _ (List.Mem.head _)))))), (Rect.mem_set_unit (s := S512x2048) (off := ![0, 256]) (size := S512x256.size) (inb := inb_S512x2048_S512x256_0_256)).2 fun a => match a with
        | ⟨0, _⟩ => ⟨Nat.zero_le _, by show i.val < 0 + 512; omega⟩
        | ⟨1, _⟩ => ⟨by show (256 : ℕ) ≤ 256 * 1 + c.val; omega, by show 256 * 1 + c.val < 256 + 256; omega⟩⟩
    · exact ⟨_, List.Mem.tail _ (List.Mem.tail _ (List.Mem.tail _ (List.Mem.tail _ (List.Mem.tail _ (List.Mem.head _))))), (Rect.mem_set_unit (s := S512x2048) (off := ![0, 512]) (size := S512x256.size) (inb := inb_S512x2048_S512x256_0_512)).2 fun a => match a with
        | ⟨0, _⟩ => ⟨Nat.zero_le _, by show i.val < 0 + 512; omega⟩
        | ⟨1, _⟩ => ⟨by show (512 : ℕ) ≤ 256 * 2 + c.val; omega, by show 256 * 2 + c.val < 512 + 256; omega⟩⟩
    · exact ⟨_, List.Mem.tail _ (List.Mem.tail _ (List.Mem.tail _ (List.Mem.tail _ (List.Mem.head _)))), (Rect.mem_set_unit (s := S512x2048) (off := ![0, 768]) (size := S512x256.size) (inb := inb_S512x2048_S512x256_0_768)).2 fun a => match a with
        | ⟨0, _⟩ => ⟨Nat.zero_le _, by show i.val < 0 + 512; omega⟩
        | ⟨1, _⟩ => ⟨by show (768 : ℕ) ≤ 256 * 3 + c.val; omega, by show 256 * 3 + c.val < 768 + 256; omega⟩⟩
    · exact ⟨_, List.Mem.tail _ (List.Mem.tail _ (List.Mem.tail _ (List.Mem.head _))), (Rect.mem_set_unit (s := S512x2048) (off := ![0, 1024]) (size := S512x256.size) (inb := inb_S512x2048_S512x256_0_1024)).2 fun a => match a with
        | ⟨0, _⟩ => ⟨Nat.zero_le _, by show i.val < 0 + 512; omega⟩
        | ⟨1, _⟩ => ⟨by show (1024 : ℕ) ≤ 256 * 4 + c.val; omega, by show 256 * 4 + c.val < 1024 + 256; omega⟩⟩
    · exact ⟨_, List.Mem.tail _ (List.Mem.tail _ (List.Mem.head _)), (Rect.mem_set_unit (s := S512x2048) (off := ![0, 1280]) (size := S512x256.size) (inb := inb_S512x2048_S512x256_0_1280)).2 fun a => match a with
        | ⟨0, _⟩ => ⟨Nat.zero_le _, by show i.val < 0 + 512; omega⟩
        | ⟨1, _⟩ => ⟨by show (1280 : ℕ) ≤ 256 * 5 + c.val; omega, by show 256 * 5 + c.val < 1280 + 256; omega⟩⟩
    · exact ⟨_, List.Mem.tail _ (List.Mem.head _), (Rect.mem_set_unit (s := S512x2048) (off := ![0, 1536]) (size := S512x256.size) (inb := inb_S512x2048_S512x256_0_1536)).2 fun a => match a with
        | ⟨0, _⟩ => ⟨Nat.zero_le _, by show i.val < 0 + 512; omega⟩
        | ⟨1, _⟩ => ⟨by show (1536 : ℕ) ≤ 256 * 6 + c.val; omega, by show 256 * 6 + c.val < 1536 + 256; omega⟩⟩
    · exact ⟨_, List.Mem.head _, (Rect.mem_set_unit (s := S512x2048) (off := ![0, 1792]) (size := S512x256.size) (inb := inb_S512x2048_S512x256_0_1792)).2 fun a => match a with
        | ⟨0, _⟩ => ⟨Nat.zero_le _, by show i.val < 0 + 512; omega⟩
        | ⟨1, _⟩ => ⟨by show (1792 : ℕ) ≤ 256 * 7 + c.val; omega, by show 256 * 7 + c.val < 1792 + 256; omega⟩⟩

include hq in
/-- the second holds `rowsOf` of the second; -/
theorem lo_holds (x3 : Vec Ideal S8x256x256 .bf16) (i : Fin 512) (s : Fin 8) (c : Fin 256) :
    View.canon (loTiles x0 x3) (ix2 i (pos s c)) = x3 (ix3 s (cw (x0 (ix3 0 i s))) c) := by
  rw [← rowsOf_pos x0 x3 i s c]
  refine View.canon_apply_of_pieces (rowsOf x0 x3) (loTiles x0 x3) ?_ _ ?_
  · intro p hp
    unfold loTiles at hp
    simp only [List.mem_cons, List.not_mem_nil, or_false] at hp
    rcases hp with rfl | rfl | rfl | rfl | rfl | rfl | rfl | rfl
    · exact fun x => lo_tile x0 hq x3 ⟨7, by decide⟩ ![0, 1792] (by decide) inb_S512x2048_S512x256_0_1792 ![0, 0, 7] (by decide) inb_S1x512x8_S1x512x1_0_0_7 ![7, 0, 0] (by decide) inb_S8x256x256_S1x256x256_7_0_0 x
    · exact fun x => lo_tile x0 hq x3 ⟨6, by decide⟩ ![0, 1536] (by decide) inb_S512x2048_S512x256_0_1536 ![0, 0, 6] (by decide) inb_S1x512x8_S1x512x1_0_0_6 ![6, 0, 0] (by decide) inb_S8x256x256_S1x256x256_6_0_0 x
    · exact fun x => lo_tile x0 hq x3 ⟨5, by decide⟩ ![0, 1280] (by decide) inb_S512x2048_S512x256_0_1280 ![0, 0, 5] (by decide) inb_S1x512x8_S1x512x1_0_0_5 ![5, 0, 0] (by decide) inb_S8x256x256_S1x256x256_5_0_0 x
    · exact fun x => lo_tile x0 hq x3 ⟨4, by decide⟩ ![0, 1024] (by decide) inb_S512x2048_S512x256_0_1024 ![0, 0, 4] (by decide) inb_S1x512x8_S1x512x1_0_0_4 ![4, 0, 0] (by decide) inb_S8x256x256_S1x256x256_4_0_0 x
    · exact fun x => lo_tile x0 hq x3 ⟨3, by decide⟩ ![0, 768] (by decide) inb_S512x2048_S512x256_0_768 ![0, 0, 3] (by decide) inb_S1x512x8_S1x512x1_0_0_3 ![3, 0, 0] (by decide) inb_S8x256x256_S1x256x256_3_0_0 x
    · exact fun x => lo_tile x0 hq x3 ⟨2, by decide⟩ ![0, 512] (by decide) inb_S512x2048_S512x256_0_512 ![0, 0, 2] (by decide) inb_S1x512x8_S1x512x1_0_0_2 ![2, 0, 0] (by decide) inb_S8x256x256_S1x256x256_2_0_0 x
    · exact fun x => lo_tile x0 hq x3 ⟨1, by decide⟩ ![0, 256] (by decide) inb_S512x2048_S512x256_0_256 ![0, 0, 1] (by decide) inb_S1x512x8_S1x512x1_0_0_1 ![1, 0, 0] (by decide) inb_S8x256x256_S1x256x256_1_0_0 x
    · exact fun x => lo_tile x0 hq x3 ⟨0, by decide⟩ ![0, 0] (by decide) inb_S512x2048_S512x256_0_0 ![0, 0, 0] (by decide) inb_S1x512x8_S1x512x1_0_0_0 ![0, 0, 0] (by decide) inb_S8x256x256_S1x256x256_0_0_0 x
  · unfold loTiles
    fin_cases s
    · exact ⟨_, List.Mem.tail _ (List.Mem.tail _ (List.Mem.tail _ (List.Mem.tail _ (List.Mem.tail _ (List.Mem.tail _ (List.Mem.tail _ (List.Mem.head _))))))), (Rect.mem_set_unit (s := S512x2048) (off := ![0, 0]) (size := S512x256.size) (inb := inb_S512x2048_S512x256_0_0)).2 fun a => match a with
        | ⟨0, _⟩ => ⟨Nat.zero_le _, by show i.val < 0 + 512; omega⟩
        | ⟨1, _⟩ => ⟨by show (0 : ℕ) ≤ 256 * 0 + c.val; omega, by show 256 * 0 + c.val < 0 + 256; omega⟩⟩
    · exact ⟨_, List.Mem.tail _ (List.Mem.tail _ (List.Mem.tail _ (List.Mem.tail _ (List.Mem.tail _ (List.Mem.tail _ (List.Mem.head _)))))), (Rect.mem_set_unit (s := S512x2048) (off := ![0, 256]) (size := S512x256.size) (inb := inb_S512x2048_S512x256_0_256)).2 fun a => match a with
        | ⟨0, _⟩ => ⟨Nat.zero_le _, by show i.val < 0 + 512; omega⟩
        | ⟨1, _⟩ => ⟨by show (256 : ℕ) ≤ 256 * 1 + c.val; omega, by show 256 * 1 + c.val < 256 + 256; omega⟩⟩
    · exact ⟨_, List.Mem.tail _ (List.Mem.tail _ (List.Mem.tail _ (List.Mem.tail _ (List.Mem.tail _ (List.Mem.head _))))), (Rect.mem_set_unit (s := S512x2048) (off := ![0, 512]) (size := S512x256.size) (inb := inb_S512x2048_S512x256_0_512)).2 fun a => match a with
        | ⟨0, _⟩ => ⟨Nat.zero_le _, by show i.val < 0 + 512; omega⟩
        | ⟨1, _⟩ => ⟨by show (512 : ℕ) ≤ 256 * 2 + c.val; omega, by show 256 * 2 + c.val < 512 + 256; omega⟩⟩
    · exact ⟨_, List.Mem.tail _ (List.Mem.tail _ (List.Mem.tail _ (List.Mem.tail _ (List.Mem.head _)))), (Rect.mem_set_unit (s := S512x2048) (off := ![0, 768]) (size := S512x256.size) (inb := inb_S512x2048_S512x256_0_768)).2 fun a => match a with
        | ⟨0, _⟩ => ⟨Nat.zero_le _, by show i.val < 0 + 512; omega⟩
        | ⟨1, _⟩ => ⟨by show (768 : ℕ) ≤ 256 * 3 + c.val; omega, by show 256 * 3 + c.val < 768 + 256; omega⟩⟩
    · exact ⟨_, List.Mem.tail _ (List.Mem.tail _ (List.Mem.tail _ (List.Mem.head _))), (Rect.mem_set_unit (s := S512x2048) (off := ![0, 1024]) (size := S512x256.size) (inb := inb_S512x2048_S512x256_0_1024)).2 fun a => match a with
        | ⟨0, _⟩ => ⟨Nat.zero_le _, by show i.val < 0 + 512; omega⟩
        | ⟨1, _⟩ => ⟨by show (1024 : ℕ) ≤ 256 * 4 + c.val; omega, by show 256 * 4 + c.val < 1024 + 256; omega⟩⟩
    · exact ⟨_, List.Mem.tail _ (List.Mem.tail _ (List.Mem.head _)), (Rect.mem_set_unit (s := S512x2048) (off := ![0, 1280]) (size := S512x256.size) (inb := inb_S512x2048_S512x256_0_1280)).2 fun a => match a with
        | ⟨0, _⟩ => ⟨Nat.zero_le _, by show i.val < 0 + 512; omega⟩
        | ⟨1, _⟩ => ⟨by show (1280 : ℕ) ≤ 256 * 5 + c.val; omega, by show 256 * 5 + c.val < 1280 + 256; omega⟩⟩
    · exact ⟨_, List.Mem.tail _ (List.Mem.head _), (Rect.mem_set_unit (s := S512x2048) (off := ![0, 1536]) (size := S512x256.size) (inb := inb_S512x2048_S512x256_0_1536)).2 fun a => match a with
        | ⟨0, _⟩ => ⟨Nat.zero_le _, by show i.val < 0 + 512; omega⟩
        | ⟨1, _⟩ => ⟨by show (1536 : ℕ) ≤ 256 * 6 + c.val; omega, by show 256 * 6 + c.val < 1536 + 256; omega⟩⟩
    · exact ⟨_, List.Mem.head _, (Rect.mem_set_unit (s := S512x2048) (off := ![0, 1792]) (size := S512x256.size) (inb := inb_S512x2048_S512x256_0_1792)).2 fun a => match a with
        | ⟨0, _⟩ => ⟨Nat.zero_le _, by show i.val < 0 + 512; omega⟩
        | ⟨1, _⟩ => ⟨by show (1792 : ℕ) ≤ 256 * 7 + c.val; omega, by show 256 * 7 + c.val < 1792 + 256; omega⟩⟩

/-- the key buffer holds `keysOf`. -/
theorem key_holds (s : Fin 8) (c : Fin 256) (j : Fin 2048) :
    View.canon (keyTiles x1) (ix2 (pos s c) j) = if c.val = (x1 (ix3 0 s j)).toNat then 1 else 0 := by
  rw [← keysOf_pos x1 s c j]
  refine View.canon_apply_of_pieces (keysOf x1) (keyTiles x1) ?_ _ ?_
  · intro p hp
    unfold keyTiles at hp
    simp only [List.mem_cons, List.not_mem_nil, or_false] at hp
    rcases hp with rfl | rfl | rfl | rfl | rfl | rfl | rfl | rfl
    · exact fun x => key_tile x1 ⟨7, by decide⟩ ![1792, 0] (by decide) inb_S2048x2048_S256x2048_1792_0 ![0, 7, 0] (by decide) inb_S1x8x2048_S1x1x2048_0_7_0 x
    · exact fun x => key_tile x1 ⟨6, by decide⟩ ![1536, 0] (by decide) inb_S2048x2048_S256x2048_1536_0 ![0, 6, 0] (by decide) inb_S1x8x2048_S1x1x2048_0_6_0 x
    · exact fun x => key_tile x1 ⟨5, by decide⟩ ![1280, 0] (by decide) inb_S2048x2048_S256x2048_1280_0 ![0, 5, 0] (by decide) inb_S1x8x2048_S1x1x2048_0_5_0 x
    · exact fun x => key_tile x1 ⟨4, by decide⟩ ![1024, 0] (by decide) inb_S2048x2048_S256x2048_1024_0 ![0, 4, 0] (by decide) inb_S1x8x2048_S1x1x2048_0_4_0 x
    · exact fun x => key_tile x1 ⟨3, by decide⟩ ![768, 0] (by decide) inb_S2048x2048_S256x2048_768_0 ![0, 3, 0] (by decide) inb_S1x8x2048_S1x1x2048_0_3_0 x
    · exact fun x => key_tile x1 ⟨2, by decide⟩ ![512, 0] (by decide) inb_S2048x2048_S256x2048_512_0 ![0, 2, 0] (by decide) inb_S1x8x2048_S1x1x2048_0_2_0 x
    · exact fun x => key_tile x1 ⟨1, by decide⟩ ![256, 0] (by decide) inb_S2048x2048_S256x2048_256_0 ![0, 1, 0] (by decide) inb_S1x8x2048_S1x1x2048_0_1_0 x
    · exact fun x => key_tile x1 ⟨0, by decide⟩ ![0, 0] (by decide) inb_S2048x2048_S256x2048_0_0 ![0, 0, 0] (by decide) inb_S1x8x2048_S1x1x2048_0_0_0 x
  · unfold keyTiles
    fin_cases s
    · exact ⟨_, List.Mem.tail _ (List.Mem.tail _ (List.Mem.tail _ (List.Mem.tail _ (List.Mem.tail _ (List.Mem.tail _ (List.Mem.tail _ (List.Mem.head _))))))), (Rect.mem_set_unit (s := S2048x2048) (off := ![0, 0]) (size := S256x2048.size) (inb := inb_S2048x2048_S256x2048_0_0)).2 fun a => match a with
        | ⟨0, _⟩ => ⟨by show (0 : ℕ) ≤ 256 * 0 + c.val; omega, by show 256 * 0 + c.val < 0 + 256; omega⟩
        | ⟨1, _⟩ => ⟨Nat.zero_le _, by show j.val < 0 + 2048; omega⟩⟩
    · exact ⟨_, List.Mem.tail _ (List.Mem.tail _ (List.Mem.tail _ (List.Mem.tail _ (List.Mem.tail _ (List.Mem.tail _ (List.Mem.head _)))))), (Rect.mem_set_unit (s := S2048x2048) (off := ![256, 0]) (size := S256x2048.size) (inb := inb_S2048x2048_S256x2048_256_0)).2 fun a => match a with
        | ⟨0, _⟩ => ⟨by show (256 : ℕ) ≤ 256 * 1 + c.val; omega, by show 256 * 1 + c.val < 256 + 256; omega⟩
        | ⟨1, _⟩ => ⟨Nat.zero_le _, by show j.val < 0 + 2048; omega⟩⟩
    · exact ⟨_, List.Mem.tail _ (List.Mem.tail _ (List.Mem.tail _ (List.Mem.tail _ (List.Mem.tail _ (List.Mem.head _))))), (Rect.mem_set_unit (s := S2048x2048) (off := ![512, 0]) (size := S256x2048.size) (inb := inb_S2048x2048_S256x2048_512_0)).2 fun a => match a with
        | ⟨0, _⟩ => ⟨by show (512 : ℕ) ≤ 256 * 2 + c.val; omega, by show 256 * 2 + c.val < 512 + 256; omega⟩
        | ⟨1, _⟩ => ⟨Nat.zero_le _, by show j.val < 0 + 2048; omega⟩⟩
    · exact ⟨_, List.Mem.tail _ (List.Mem.tail _ (List.Mem.tail _ (List.Mem.tail _ (List.Mem.head _)))), (Rect.mem_set_unit (s := S2048x2048) (off := ![768, 0]) (size := S256x2048.size) (inb := inb_S2048x2048_S256x2048_768_0)).2 fun a => match a with
        | ⟨0, _⟩ => ⟨by show (768 : ℕ) ≤ 256 * 3 + c.val; omega, by show 256 * 3 + c.val < 768 + 256; omega⟩
        | ⟨1, _⟩ => ⟨Nat.zero_le _, by show j.val < 0 + 2048; omega⟩⟩
    · exact ⟨_, List.Mem.tail _ (List.Mem.tail _ (List.Mem.tail _ (List.Mem.head _))), (Rect.mem_set_unit (s := S2048x2048) (off := ![1024, 0]) (size := S256x2048.size) (inb := inb_S2048x2048_S256x2048_1024_0)).2 fun a => match a with
        | ⟨0, _⟩ => ⟨by show (1024 : ℕ) ≤ 256 * 4 + c.val; omega, by show 256 * 4 + c.val < 1024 + 256; omega⟩
        | ⟨1, _⟩ => ⟨Nat.zero_le _, by show j.val < 0 + 2048; omega⟩⟩
    · exact ⟨_, List.Mem.tail _ (List.Mem.tail _ (List.Mem.head _)), (Rect.mem_set_unit (s := S2048x2048) (off := ![1280, 0]) (size := S256x2048.size) (inb := inb_S2048x2048_S256x2048_1280_0)).2 fun a => match a with
        | ⟨0, _⟩ => ⟨by show (1280 : ℕ) ≤ 256 * 5 + c.val; omega, by show 256 * 5 + c.val < 1280 + 256; omega⟩
        | ⟨1, _⟩ => ⟨Nat.zero_le _, by show j.val < 0 + 2048; omega⟩⟩
    · exact ⟨_, List.Mem.tail _ (List.Mem.head _), (Rect.mem_set_unit (s := S2048x2048) (off := ![1536, 0]) (size := S256x2048.size) (inb := inb_S2048x2048_S256x2048_1536_0)).2 fun a => match a with
        | ⟨0, _⟩ => ⟨by show (1536 : ℕ) ≤ 256 * 6 + c.val; omega, by show 256 * 6 + c.val < 1536 + 256; omega⟩
        | ⟨1, _⟩ => ⟨Nat.zero_le _, by show j.val < 0 + 2048; omega⟩⟩
    · exact ⟨_, List.Mem.head _, (Rect.mem_set_unit (s := S2048x2048) (off := ![1792, 0]) (size := S256x2048.size) (inb := inb_S2048x2048_S256x2048_1792_0)).2 fun a => match a with
        | ⟨0, _⟩ => ⟨by show (1792 : ℕ) ≤ 256 * 7 + c.val; omega, by show 256 * 7 + c.val < 1792 + 256; omega⟩
        | ⟨1, _⟩ => ⟨Nat.zero_le _, by show j.val < 0 + 2048; omega⟩⟩

variable (hk : ∀ (s : Fin 8) (j : Fin 2048), (x1 (ix3 0 s j)).toNat < 256)

include hq hk in
/-- The block one grid point writes: at (i, j), the sum over the subspaces of the first table operand's entries at
    (s, query code, key code), plus the same sum for the second table operand. -/
theorem block_apply (x2 x3 : Vec Ideal S8x256x256 .bf16) (i : Fin 512) (j : Fin 2048) :
    k0_pay44 (F := Ideal) (k0_pay43 (View.canon (hiTiles x0 x2)) (View.canon (keyTiles x1))) (View.canon (loTiles x0 x3))
        (View.canon (keyTiles x1)) (ix3 0 i j)
      = (∑ s : Fin 8, x2 (ix3 s (cw (x0 (ix3 0 i s))) (cw (x1 (ix3 0 s j)))))
        + ∑ s : Fin 8, x3 (ix3 s (cw (x0 (ix3 0 i s))) (cw (x1 (ix3 0 s j)))) := by
  rw [second_apply, first_apply, sum_blocks, sum_blocks]
  simp only [hi_holds x0 hq x2, lo_holds x0 hq x3, key_holds x1]
  congr 1
  · refine Finset.sum_congr rfl fun s _ => ?_
    rw [sum_pick_val_right _ (hk s j) fun c => x2 (ix3 s (cw (x0 (ix3 0 i s))) c), cw_of_lt _ (hk s j)]
  · refine Finset.sum_congr rfl fun s _ => ?_
    rw [sum_pick_val_right _ (hk s j) fun c => x3 (ix3 s (cw (x0 (ix3 0 i s))) c), cw_of_lt _ (hk s j)]

end Cert.KernelIdeal.Block

end
-- ==== Proof.Entry.lean ====
/-
  The arrays the kernel region finds: what the host operations before it leave in the four operands.

  The query codes are wrapped (a negative code has 256 added) and clamped into [0, 255]; the key codes likewise, then
  transposed so that the subspace axis comes before the key axis; the first table operand is the table with its
  format changed, the second the table minus the first with its format changed back and forth.
-/
import proofs.«418404_j28690381537807_3_alg».proof.Proof.Gen.KernelIdeal.Frame
import proofs.«418404_j28690381537807_3_alg».proof.Proof.Codes
import Idealize.ShloMosaic.Lib.StableHlo.Run

set_option maxRecDepth 16384

noncomputable section

namespace Cert.KernelIdeal.Entry

open Cert.KernelIdeal Cert.KernelIdeal.Gen Idealize.ShloMosaic Idealize.ShloMosaic.TcCoe Idealize.ShloMosaic.Tactic
open Idealize.SL.Sem Idealize.ShloMosaic.StableHlo Cert.Codes

variable {F : FTy → Type} [FloatOps F]
variable (m : (ℓ : Loc nD τ sig) → Buf (Elt F) ℓ)

/-- The query codes as launched, -/
abbrev qcodes (c : Dev nD) : IVec S2x2048x8 32 := m ((c : Thread nD τ).loc main_arg0)
/-- the key codes, -/
abbrev kcodes (c : Dev nD) : IVec S2x2048x8 32 := m ((c : Thread nD τ).loc main_arg1)
/-- and the table. -/
abbrev table (c : Dev nD) : FVec F S8x256x256 .f32 := m ((c : Thread nD τ).loc main_arg2)

set_option maxHeartbeats 4000000 in
/-- Operand 0: the query codes, wrapped and clamped. -/
theorem entry_q (c : Dev nD) :
    (V m c main_v5 : IVec S2x2048x8 32) = fun y => clip (wrap (qcodes m c y)) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results
  all_goals rfl

set_option maxHeartbeats 4000000 in
/-- Operand 1: the key codes, wrapped and clamped, the subspace axis moved before the key axis. -/
theorem entry_k (c : Dev nD) :
    (V m c main_v12 : IVec S2x8x2048 32) = transpose S2x8x2048 [0, 2, 1] (fun y => clip (wrap (kcodes m c y))) transposes_S2x2048x8_S2x8x2048_0_2_1 := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results
  all_goals rfl

/-- Operand 2: the table in the narrower format. -/
theorem entry_hi (c : Dev nD) :
    (V m c main_v13 : FVec F S8x256x256 .bf16) = truncf .bf16 (table m c) bitsLt_bf16_f32 := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results
  all_goals rfl

/-- Operand 3: the table minus operand 2 widened again, in the narrower format. -/
theorem entry_lo (c : Dev nD) :
    (V m c main_v16 : FVec F S8x256x256 .bf16) = truncf .bf16 (subf (table m c) (extf .f32 (truncf .bf16 (table m c) bitsLt_bf16_f32) bitsLt_bf16_f32)) bitsLt_bf16_f32 := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results
  all_goals rfl

end Cert.KernelIdeal.Entry

end
-- ==== Proof.Spec.lean ====
/-
  The function both programs compute.

  For batch b, query position I and key position j, the result is the sum over the eight subspaces s of the distance
  table's entry at (s, the codeword query I selects in subspace s, the codeword key j selects in subspace s).
-/
import proofs.«418404_j28690381537807_3_alg».proof.Proof.Codes
import Idealize.ShloMosaic.Lib.ValueIdx

noncomputable section

namespace Cert.Spec

open Idealize.ShloMosaic Idealize.ShloMosaic.ValueIdx Cert.Codes

/-- The summed table look-ups, as one function of the query codes, the key codes and the table. -/
def pairSum (q k : (⟨3, ![2, 2048, 8]⟩ : Shape).Idx → BitVec 32) (T : (⟨3, ![8, 256, 256]⟩ : Shape).Idx → EReal) :
    (⟨3, ![2, 2048, 2048]⟩ : Shape).Idx → EReal :=
  fun y => ∑ s : Fin 8, T (ix3 s (code (q (ix3 (y 0) (y 1) s))) (code (k (ix3 (y 0) (y 2) s))))

end Cert.Spec

end
-- ==== Proof.Whole.lean ====
/-
  The kernel's result array is the summed table look-ups.

  Grid point (b, g) works on batch b and query rows 512·g … 512·g + 511: its query block is those rows' codes, its
  key block all of batch b's key codes (subspace axis first), its two table blocks the whole tables.  What the point
  writes back is therefore, at (i, j), the sum over the subspaces of the first table operand's entry at
  (s, code of query 512·g + i, code of key j) plus the same sum for the second operand.  The first operand is the table
  itself; the second is the table minus itself, which is zero wherever the table's entry is a real number.  So the
  point writes back exactly the block of the summed look-ups that it covers; the eight points' blocks tile the array.
-/
import proofs.«418404_j28690381537807_3_alg».proof.Proof.Gen.KernelIdeal.Value
import proofs.«418404_j28690381537807_3_alg».proof.Proof.Block
import proofs.«418404_j28690381537807_3_alg».proof.Proof.Entry
import proofs.«418404_j28690381537807_3_alg».proof.Proof.Spec

set_option maxRecDepth 16384

noncomputable section

namespace Cert.KernelIdeal.Whole

open Cert.KernelIdeal Cert.KernelIdeal.Gen Cert.KernelIdeal.Value Idealize.ShloMosaic Idealize.ShloMosaic.TcCoe
open Idealize.SL.Sem Idealize.ShloMosaic.ValueIdx
open Idealize.ShloMosaic.Pipeline (Dat)
open Cert.Codes Cert.Sums Cert.Spec Cert.KernelIdeal.Block Cert.KernelIdeal.Entry

variable (m : (ℓ : Loc nD τ sig) → Buf (Elt Ideal) ℓ) (ρ : Dev nD → PrngReg)

/-- The four input blocks at a grid point, by their literal types. -/
abbrev qblk (c : Dev nD) (t : Fin cfg0.N) : Vec Ideal S1x512x8 .i32 := iblk m c 0 t
abbrev kblk (c : Dev nD) (t : Fin cfg0.N) : Vec Ideal S1x8x2048 .i32 := iblk m c 1 t
abbrev hblk (c : Dev nD) (t : Fin cfg0.N) : Vec Ideal S8x256x256 .bf16 := iblk m c 2 t
abbrev lblk (c : Dev nD) (t : Fin cfg0.N) : Vec Ideal S8x256x256 .bf16 := iblk m c 3 t

/-- Where entry (i, j) of point t's output block sits in the result array: batch, query row, key column. -/
abbrev ob (t : Fin cfg0.N) (i : Fin 512) (j : Fin 2048) : Fin 2 := ((cfg0.win 4).blk t).view.emb (ix3 0 i j) 0
abbrev oI (t : Fin cfg0.N) (i : Fin 512) (j : Fin 2048) : Fin 2048 := ((cfg0.win 4).blk t).view.emb (ix3 0 i j) 1
abbrev oj (t : Fin cfg0.N) (i : Fin 512) (j : Fin 2048) : Fin 2048 := ((cfg0.win 4).blk t).view.emb (ix3 0 i j) 2

/-- The printed index maps over the grid: the query block follows the output block on the batch and row axes, the key
    block on the batch axis; every other block index is 0; the output's batch index is at most 1 and its row-block
    index at most 3. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (2 : Fin 3) = 0 ∧ win0_4.index t (0 : Fin 3) ≤ 1 ∧ win0_4.index t (1 : Fin 3) ≤ 3 :=
  (by decide +kernel : ∀ t : Fin grid0.N, _)

/-- Every (batch, row-block) pair is some point's output block. -/
theorem idx_onto : ∀ (q0 : Fin 2) (q1 : Fin 4), ∃ t : Fin cfg0.N, win0_4.index t = ![q0.val, q1.val, 0] :=
  (by decide +kernel : ∀ (q0 : Fin 2) (q1 : Fin 4), ∃ t : Fin grid0.N, win0_4.index t = ![q0.val, q1.val, 0])

/-- A query block's codes are clamped words. -/
theorem qblk_lt (c : Dev nD) (t : Fin cfg0.N) (i : Fin 512) (s : Fin 8) : (qblk m c t (ix3 0 i s)).toNat < 256 := by
  show ((V m c main_v5 : IVec S2x2048x8 32) (((cfg0.win 0).blk t).view.emb (ix3 0 i s))).toNat < 256
  rw [entry_q]
  exact clip_lt _

/-- A key block's codes are clamped words. -/
theorem kblk_lt (c : Dev nD) (t : Fin cfg0.N) (s : Fin 8) (j : Fin 2048) : (kblk m c t (ix3 0 s j)).toNat < 256 := by
  show ((V m c main_v12 : IVec S2x8x2048 32) (((cfg0.win 1).blk t).view.emb (ix3 0 s j))).toNat < 256
  rw [entry_k]
  exact clip_lt _

/-- The codeword a clamped wrapped word names is the code's codeword. -/
theorem cw_clip_wrap (w : BitVec 32) : cw (clip (wrap w)) = code w :=
  Fin.ext (by show (clip (wrap w)).toNat % 256 = (code w).val; rw [Nat.mod_eq_of_lt (clip_lt _), clip_wrap_toNat])

/-- The query block's entry for row i, subspace s, is the clamped wrapped code of the row the output entry sits in. -/
theorem qblk_code (c : Dev nD) (t : Fin cfg0.N) (i : Fin 512) (j : Fin 2048) (s : Fin 8) :
    cw (qblk m c t (ix3 0 i s))
      = code (qcodes m c (ix3 (ob t i j) (oI t i j) s)) := by
  obtain ⟨e0, e1, e2, -⟩ := idx_facts t
  show cw ((V m c main_v5 : IVec S2x2048x8 32) (((cfg0.win 0).blk t).view.emb (ix3 0 i s))) = _
  rw [entry_q]
  show cw (clip (wrap (qcodes m c (((cfg0.win 0).blk t).view.emb (ix3 0 i s))))) = _
  rw [cw_clip_wrap]
  refine congrArg (fun y => code (qcodes m c y)) (funext fun a => Fin.ext ?_)
  match a with
  | ⟨0, _⟩ => show win0_0.index t (0 : Fin 3) * 1 + 1 * 0 = win0_4.index t (0 : Fin 3) * 1 + 1 * 0; omega
  | ⟨1, _⟩ => show win0_0.index t (1 : Fin 3) * 512 + 1 * i.val = win0_4.index t (1 : Fin 3) * 512 + 1 * i.val; omega
  | ⟨2, _⟩ => show win0_0.index t (2 : Fin 3) * 8 + 1 * s.val = s.val; omega

/-- The key block's entry for subspace s, key j, is the clamped wrapped code of key j of the output entry's batch. -/
theorem kblk_code (c : Dev nD) (t : Fin cfg0.N) (i : Fin 512) (j : Fin 2048) (s : Fin 8) :
    cw (kblk m c t (ix3 0 s j))
      = code (kcodes m c (ix3 (ob t i j) (oj t i j) s)) := by
  obtain ⟨-, -, -, e3, e4, e5, -, -, -, -, -, -, e12, -⟩ := idx_facts t
  show cw ((V m c main_v12 : IVec S2x8x2048 32) (((cfg0.win 1).blk t).view.emb (ix3 0 s j))) = _
  rw [entry_k]
  have hI : ((cfg0.win 1).blk t).view.emb (ix3 0 s j)
      = ix3 (ob t i j) s (oj t i j) := by
    refine funext fun a => Fin.ext ?_
    match a with
    | ⟨0, _⟩ => show win0_1.index t (0 : Fin 3) * 1 + 1 * 0 = win0_4.index t (0 : Fin 3) * 1 + 1 * 0; omega
    | ⟨1, _⟩ => show win0_1.index t (1 : Fin 3) * 8 + 1 * s.val = s.val; omega
    | ⟨2, _⟩ => show win0_1.index t (2 : Fin 3) * 2048 + 1 * j.val = win0_4.index t (2 : Fin 3) * 2048 + 1 * j.val; omega
  rw [hI, transpose_ix3_021_apply, cw_clip_wrap]

/-- The first table block is the table. -/
theorem hblk_apply (c : Dev nD) (t : Fin cfg0.N) (s : Fin 8) (r c' : Fin 256) :
    hblk m c t (ix3 s r c') = table m c (ix3 s r c') := by
  obtain ⟨-, -, -, -, -, -, e6, e7, e8, -⟩ := idx_facts t
  show (V m c main_v13 : FVec Ideal S8x256x256 .bf16) (((cfg0.win 2).blk t).view.emb (ix3 s r c')) = _
  rw [entry_hi]
  show table m c (((cfg0.win 2).blk t).view.emb (ix3 s r c')) = _
  refine congrArg (table m c) (funext fun a => Fin.ext ?_)
  match a with
  | ⟨0, _⟩ => show win0_2.index t (0 : Fin 3) * 8 + 1 * s.val = s.val; omega
  | ⟨1, _⟩ => show win0_2.index t (1 : Fin 3) * 256 + 1 * r.val = r.val; omega
  | ⟨2, _⟩ => show win0_2.index t (2 : Fin 3) * 256 + 1 * c'.val = c'.val; omega

/-- The second table block is the table minus itself: zero at an entry that is a real number. -/
theorem lblk_apply (c : Dev nD) (t : Fin cfg0.N) (s : Fin 8) (r c' : Fin 256)
    (hfin : ∃ x : ℝ, table m c (ix3 s r c') = (x : EReal)) :
    lblk m c t (ix3 s r c') = 0 := by
  obtain ⟨-, -, -, -, -, -, -, -, -, e9, e10, e11, -⟩ := idx_facts t
  show (V m c main_v16 : FVec Ideal S8x256x256 .bf16) (((cfg0.win 3).blk t).view.emb (ix3 s r c')) = _
  rw [entry_lo]
  have hI : ((cfg0.win 3).blk t).view.emb (ix3 s r c') = ix3 s r c' := by
    refine funext fun a => Fin.ext ?_
    match a with
    | ⟨0, _⟩ => show win0_3.index t (0 : Fin 3) * 8 + 1 * s.val = s.val; omega
    | ⟨1, _⟩ => show win0_3.index t (1 : Fin 3) * 256 + 1 * r.val = r.val; omega
    | ⟨2, _⟩ => show win0_3.index t (2 : Fin 3) * 256 + 1 * c'.val = c'.val; omega
  rw [hI]
  show table m c (ix3 s r c') - table m c (ix3 s r c') = 0
  obtain ⟨x, hx⟩ := hfin
  rw [hx, ← EReal.coe_sub, sub_self, EReal.coe_zero]

variable (hfin : ∀ (c : Dev nD) (y : S8x256x256.Idx), ∃ x : ℝ, table m c y = (x : EReal))

include hfin in
/-- What a grid point writes back is its block of the summed look-ups. -/
theorem flushed_eq (c : Dev nD) (t : Fin cfg0.N) :
    (dats m 0 c).flushed 4 t
      = ((cfg0.win 4).blk t).view.read (Elt Ideal) (pairSum (qcodes m c) (kcodes m c) (table m c)) := by
  rw [flushed4_A, out_eq]
  funext y
  have h0 : (y 0).val < 1 := (y 0).isLt
  obtain ⟨i, j, rfl⟩ : ∃ (i : Fin 512) (j : Fin 2048), y = ix3 0 i j :=
    ⟨y 1, y 2, funext fun a => match a with
      | ⟨0, _⟩ => Fin.ext (by show (y 0).val = 0; omega)
      | ⟨1, _⟩ => rfl
      | ⟨2, _⟩ => rfl⟩
  show k0_pay44 (F := Ideal) (k0_pay43 (View.canon (hiTiles (qblk m c t) (hblk m c t))) (View.canon (keyTiles (kblk m c t))))
      (View.canon (loTiles (qblk m c t) (lblk m c t))) (View.canon (keyTiles (kblk m c t))) (ix3 0 i j)
    = pairSum (qcodes m c) (kcodes m c) (table m c) (((cfg0.win 4).blk t).view.emb (ix3 0 i j))
  rw [block_apply (qblk m c t) (kblk m c t) (qblk_lt m c t) (kblk_lt m c t) (hblk m c t) (lblk m c t) i j]
  have hlo : ∀ s : Fin 8, lblk m c t (ix3 s (cw (qblk m c t (ix3 0 i s))) (cw (kblk m c t (ix3 0 s j)))) = 0 :=
    fun s => lblk_apply m c t s _ _ (hfin c _)
  simp only [hlo, Finset.sum_const_zero, add_zero]
  show (∑ s : Fin 8, hblk m c t (ix3 s (cw (qblk m c t (ix3 0 i s))) (cw (kblk m c t (ix3 0 s j)))))
    = ∑ s : Fin 8, table m c (ix3 s (code (qcodes m c (ix3 (ob t i j) (oI t i j) s))) (code (kcodes m c (ix3 (ob t i j) (oj t i j) s))))
  refine Finset.sum_congr rfl fun s _ => ?_
  rw [hblk_apply, qblk_code m c t i j s, kblk_code m c t i j s]

/-- An index of the array is in point t's block iff each coordinate is in the block's range on its axis. -/
theorem mem_blk (t : Fin cfg0.N) (i : S2x2048x2048.Idx) :
    i ∈ ((cfg0.win 4).blk t).view.set ↔ ∀ a : Fin 3, win0_4.index t a * S1x512x2048.size a ≤ (i a).val
      ∧ (i a).val < win0_4.index t a * S1x512x2048.size a + S1x512x2048.size a := by
  show i ∈ ((View.whole main_v17).slice (win0_4.rect t)).set ↔ _
  rw [View.set_slice_whole, Rect.mem_set_unit]
  exact Iff.rfl

/-- Every index of the array is in some point's block. -/
theorem cover (i : S2x2048x2048.Idx) : ∃ t : Fin cfg0.N, (cfg0.win 4).flush t = true ∧ i ∈ ((cfg0.win 4).blk t).view.set := by
  have hi0 : (i 0).val < 2 := (i 0).isLt
  have hi1 : (i 1).val < 2048 := (i 1).isLt
  have hi2 : (i 2).val < 2048 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 2048 ≤ (i 2).val ∧ (i 2).val < win0_4.index t (2 : Fin 3) * 2048 + 2048; omega

include hfin in
/-- The result array after the run is the summed look-ups. -/
theorem final (c : Dev nD) : (dats m 0 c).arrAt 4 cfg0.N = pairSum (qcodes m c) (kcodes m c) (table m c) :=
  (dats m 0 c).arrAt_eq_of_cover 4 (pairSum (qcodes m c) (kcodes m c) (table m c)) (fun t _ => flushed_eq m hfin c t) cover

include hfin in
/-- The kernel's run: the result at the summed look-ups of the arguments, the arguments unchanged. -/
theorem run : θ_run defs (onTc (τ := τ) (main (F := Ideal))) ⟨m, fun _ => 0, ρ⟩ fun r => ∀ c : Dev nD,
      r.2.mem ((c : Thread nD τ).loc main_v17) = pairSum (qcodes m c) (kcodes m c) (table m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m hfin c), (h c).2⟩) (run_blocks m ρ)

end Cert.KernelIdeal.Whole

end
-- ==== Proof.Reference.lean ====
/-
  The reference is the summed table look-ups.

  The reference stacks three index words per result entry and subspace — the subspace number, the wrapped query code,
  the wrapped key code — and gathers one table entry with them: the gather reads each word as a signed integer and
  clamps it to the table's axis, which is how a wrapped code selects its codeword; a subspace number is already in
  range.  It then sums the eight gathered entries from zero.
-/
import proofs.«418404_j28690381537807_3_alg».proof.Proof.Gen.ReferenceIdeal.Read
import proofs.«418404_j28690381537807_3_alg».proof.Proof.Spec
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx
open Cert.Codes Cert.Spec

/-- The gather's record: three index words per result entry, one per table axis, each table axis collapsed. -/
abbrev gatherD : GatherDims S8x256x256 S2x2048x2048x8x3 S2x2048x2048x8 := gather_S8x256x256_S2x2048x2048x8x3_S2x2048x2048x8_n_012_n_n_012_4_111

/-- Where result entry (b, I, j, s) finds its word for table axis a: at (b, I, j, s, a). -/
theorem siIdx_eq (b : Fin 2) (I j : Fin 2048) (s : Fin 8) (a : Fin 3) (h : a.val < gatherD.startIndexMap.length) :
    gatherD.siIdx (ix4 b I j s) ⟨a.val, h⟩ = ix5 b I j s a := by
  funext p
  match p with
  | ⟨0, _⟩ => rfl
  | ⟨1, _⟩ => rfl
  | ⟨2, _⟩ => rfl
  | ⟨3, _⟩ => rfl
  | ⟨4, _⟩ => rfl

/-- The gather reads, for result entry (b, I, j, s), the table at its three words, each read signed and clamped to
    its axis. -/
theorem gather_apply (T : S8x256x256.Idx → EReal) (idx : IVec S2x2048x2048x8x3 32) (b : Fin 2) (I j : Fin 2048) (s : Fin 8) :
    Host.gather gatherD T idx (ix4 b I j s)
      = T (ix3 ⟨min (idx (ix5 b I j s 0)).toInt.toNat 7, by omega⟩ ⟨min (idx (ix5 b I j s 1)).toInt.toNat 255, by omega⟩
          ⟨min (idx (ix5 b I j s 2)).toInt.toNat 255, by omega⟩) := by
  unfold Host.gather
  refine congrArg T (funext fun a => Fin.ext ?_)
  have key : ∀ (a : Fin 3) (ha : a ∈ gatherD.startIndexMap) (hl : a.val < gatherD.startIndexMap.length)
      (hi : List.idxOf a gatherD.startIndexMap = a.val),
      (gatherD.operandIdx (ix4 b I j s) idx a).val
        = min (idx (ix5 b I j s a)).toInt.toNat (S8x256x256.size a - gatherD.sliceSizes a) := by
    intro a ha hl hi
    have hb : a ∉ gatherD.operandBatchingDims := List.not_mem_nil
    have hk : a ∉ gatherD.sKept := by
      rw [GatherDims.mem_sKept]
      intro h; exact h.1 (by fin_cases a <;> decide)
    show gatherD.start (ix4 b I j s) idx a + gatherD.batchCoord (ix4 b I j s) a + gatherD.offCoord (ix4 b I j s) a = _
    rw [GatherDims.batchCoord_eq_zero _ _ _ hb, GatherDims.offCoord_eq_zero _ _ _ hk]
    simp only [Nat.add_zero]
    unfold GatherDims.start
    rw [dif_pos ha]
    have e : (⟨List.idxOf a gatherD.startIndexMap, List.idxOf_lt_length_iff.2 ha⟩ : Fin gatherD.startIndexMap.length) = ⟨a.val, hl⟩ :=
      Fin.ext hi
    rw [e, siIdx_eq]
  match a with
  | ⟨0, _⟩ => exact key 0 (by decide) (by decide) (by decide)
  | ⟨1, _⟩ => exact key 1 (by decide) (by decide) (by decide)
  | ⟨2, _⟩ => exact key 2 (by decide) (by decide) (by decide)

/-! ## The three index words -/

/-- The three arrays the reference stacks along a new last axis: subspace numbers, wrapped query codes, wrapped key codes. -/
abbrev words (q k : IVec S2x2048x8 32) : List ((s : Shape) × (s.Idx → BitVec 32)) :=
  [⟨S2x2048x2048x8x1, val_main_v21 (F := Ideal)⟩, ⟨S2x2048x2048x8x1, val_main_v22 (F := Ideal) q⟩,
    ⟨S2x2048x2048x8x1, val_main_v23 (F := Ideal) k⟩]

/-- The stacked index array's word for table axis a at (b, I, j, s) is the a-th stacked array's entry there. -/
theorem word0 (q k : IVec S2x2048x8 32) (b : Fin 2) (I j : Fin 2048) (s : Fin 8) :
    val_main_v24 (F := Ideal) q k (ix5 b I j s 0) = val_main_v21 (F := Ideal) (ix5 b I j s 0) := by
  unfold val_main_v24
  exact concatenate_apply_piece (t := S2x2048x2048x8x3) 4 (words q k) _ (ix5 b I j s 0) 0 (by show (0 : ℕ) < 3; decide) S2x2048x2048x8x1 (val_main_v21 (F := Ideal)) rfl rfl 0 rfl (ix5 b I j s 0)
    (fun p hp => by match p with | ⟨0, _⟩ => rfl | ⟨1, _⟩ => rfl | ⟨2, _⟩ => rfl | ⟨3, _⟩ => rfl | ⟨4, _⟩ => exact absurd rfl hp) rfl

theorem word1 (q k : IVec S2x2048x8 32) (b : Fin 2) (I j : Fin 2048) (s : Fin 8) :
    val_main_v24 (F := Ideal) q k (ix5 b I j s 1) = val_main_v22 (F := Ideal) q (ix5 b I j s 0) := by
  unfold val_main_v24
  exact concatenate_apply_piece (t := S2x2048x2048x8x3) 4 (words q k) _ (ix5 b I j s 1) 1 (by show (1 : ℕ) < 3; decide) S2x2048x2048x8x1 (val_main_v22 (F := Ideal) q) rfl rfl 1 rfl (ix5 b I j s 0)
    (fun p hp => by match p with | ⟨0, _⟩ => rfl | ⟨1, _⟩ => rfl | ⟨2, _⟩ => rfl | ⟨3, _⟩ => rfl | ⟨4, _⟩ => exact absurd rfl hp) rfl

theorem word2 (q k : IVec S2x2048x8 32) (b : Fin 2) (I j : Fin 2048) (s : Fin 8) :
    val_main_v24 (F := Ideal) q k (ix5 b I j s 2) = val_main_v23 (F := Ideal) k (ix5 b I j s 0) := by
  unfold val_main_v24
  exact concatenate_apply_piece (t := S2x2048x2048x8x3) 4 (words q k) _ (ix5 b I j s 2) 2 (by show (2 : ℕ) < 3; decide) S2x2048x2048x8x1 (val_main_v23 (F := Ideal) k) rfl rfl 2 rfl (ix5 b I j s 0)
    (fun p hp => by match p with | ⟨0, _⟩ => rfl | ⟨1, _⟩ => rfl | ⟨2, _⟩ => rfl | ⟨3, _⟩ => rfl | ⟨4, _⟩ => exact absurd rfl hp) rfl

/-- The first word is the subspace number (a number below 8 is not negative, so nothing is added to it). -/
theorem subspace_word (b : Fin 2) (I j : Fin 2048) (s : Fin 8) :
    min (val_main_v21 (F := Ideal) (ix5 b I j s 0)).toInt.toNat 7 = s.val := by
  simp only [val_main_v21_apply, val_main_v18_apply, val_main_v7_apply, val_main_v4_apply, val_main_v6_apply,
    val_main_v0_apply, val_main_v3_apply, val_main_v5_apply, val_main_c_apply, val_main_c_0_apply]
  show min (Scalar.select (IntOp.cmpi .slt (BitVec.ofNat 32 s.val) 0#32) (IntOp.addi (BitVec.ofNat 32 s.val) 8#32)
    (BitVec.ofNat 32 s.val)).toInt.toNat 7 = s.val
  fin_cases s <;> decide

/-- The second word is the wrapped query code. -/
theorem query_word (q : IVec S2x2048x8 32) (b : Fin 2) (I j : Fin 2048) (s : Fin 8) :
    val_main_v22 (F := Ideal) q (ix5 b I j s 0) = wrap (q (ix3 b I s)) := by
  simp only [val_main_v22_apply, val_main_v19_apply, val_main_v12_apply, val_main_v9_apply, val_main_v11_apply,
    val_main_v1_apply, val_main_v8_apply, val_main_v10_apply, val_main_c_1_apply, val_main_c_2_apply]
  have hI : idx_main_v1 (idx_main_v19 (idx_main_v22 (ix5 b I j s (0 : Fin 1)))) = ix3 b I s :=
    funext fun a => match a with | ⟨0, _⟩ => rfl | ⟨1, _⟩ => rfl | ⟨2, _⟩ => rfl
  rw [hI]
  rfl

/-- The third word is the wrapped key code. -/
theorem key_word (k : IVec S2x2048x8 32) (b : Fin 2) (I j : Fin 2048) (s : Fin 8) :
    val_main_v23 (F := Ideal) k (ix5 b I j s 0) = wrap (k (ix3 b j s)) := by
  simp only [val_main_v23_apply, val_main_v20_apply, val_main_v17_apply, val_main_v14_apply, val_main_v16_apply,
    val_main_v2_apply, val_main_v13_apply, val_main_v15_apply, val_main_c_3_apply, val_main_c_4_apply]
  have hI : idx_main_v2 (idx_main_v20 (idx_main_v23 (ix5 b I j s (0 : Fin 1)))) = ix3 b j s :=
    funext fun a => match a with | ⟨0, _⟩ => rfl | ⟨1, _⟩ => rfl | ⟨2, _⟩ => rfl
  rw [hI]
  rfl

/-! ## The reference's result -/

/-- One gathered entry: the table at (s, query's codeword, key's codeword). -/
theorem gathered (q k : IVec S2x2048x8 32) (T : FVec Ideal S8x256x256 .f32) (b : Fin 2) (I j : Fin 2048) (s : Fin 8) :
    val_main_v25 (F := Ideal) q k T (ix4 b I j s) = T (ix3 s (code (q (ix3 b I s))) (code (k (ix3 b j s)))) := by
  unfold val_main_v25
  rw [gather_apply]
  refine congrArg T (funext fun a => Fin.ext ?_)
  match a with
  | ⟨0, _⟩ => show min (val_main_v24 (F := Ideal) q k (ix5 b I j s 0)).toInt.toNat 7 = s.val; rw [word0, subspace_word]
  | ⟨1, _⟩ => show min (val_main_v24 (F := Ideal) q k (ix5 b I j s 1)).toInt.toNat 255 = _; rw [word1, query_word]; rfl
  | ⟨2, _⟩ => show min (val_main_v24 (F := Ideal) q k (ix5 b I j s 2)).toInt.toNat 255 = _; rw [word2, key_word]; rfl

/-- The reference's result is the summed table look-ups. -/
theorem reference_eq (q k : IVec S2x2048x8 32) (T : FVec Ideal S8x256x256 .f32) :
    val_main_v26 (F := Ideal) q k T = pairSum q k T := by
  funext y
  obtain ⟨b, I, j, rfl⟩ : ∃ (b : Fin 2) (I j : Fin 2048), y = ix3 b I j := ⟨y 0, y 1, y 2, eq_ix3 y⟩
  rw [val_main_v26_apply, val_main_cst_apply, Ideal.ofBits_def, Ideal.ofBits_zero_f32, zero_add]
  refine Finset.sum_congr rfl fun s _ => ?_
  have hI : idx_main_v26 (ix3 b I j) s = ix4 b I j s :=
    funext fun a => match a with | ⟨0, _⟩ => rfl | ⟨1, _⟩ => rfl | ⟨2, _⟩ => rfl | ⟨3, _⟩ => rfl
  rw [hI, gathered]

end Cert.ReferenceIdeal.RefValue

end
-- ==== Proof.Finite.lean ====
/-
  The precondition, read back: every table entry is a real number.

  The precondition says that the conjunction, over all table entries x, of "|x| is below +∞" is true.  A conjunction
  that is true is true of every entry; |x| is the larger of x and −x, so it is below +∞ exactly when x is neither
  +∞ nor −∞, that is, when x is a real number.
-/
import proofs.«418404_j28690381537807_3_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Cert.Pre_finite_inputs

instance : Subsingleton S_.Idx := ⟨fun a b => funext fun d => d.elim0⟩

/-- The word 0x7F800000 denotes +∞. -/
theorem inf_word : Ideal.ofBits .f32 0x7F800000#32 = (⊤ : EReal) := by simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- Under the precondition every table entry is a real number. -/
theorem table_real (q k : IVec S2x2048x8 32) (T : FVec Ideal S8x256x256 .f32)
    (h : fn (F := Ideal) q k T = fun _ => 1#1) (y : S8x256x256.Idx) : ∃ r : ℝ, T y = (r : EReal) := by
  have h0 := congrFun h ix0
  dsimp only [fn] at h0
  have h1 := Host.reduce_andi_all _ _ _ _ _ h0 y
  have h2 : Ideal.cmp .olt (max (T y) (-(T y))) (Ideal.ofBits .f32 0x7F800000#32) = 1#1 := h1
  rw [inf_word] at h2
  refine real_of_abs_lt_top (T y) ?_
  unfold Ideal.cmp at h2
  by_contra hn
  have : decide (max (T y) (-(T y)) < (⊤ : EReal)) = false := by simpa using hn
  simp only [this] at h2
  exact absurd h2 (by decide)

end Cert.Finite

end
-- ==== Proof.lean ====
/-
  A product-quantisation distance kernel against its gather reference, over the extended reals.

  The inputs are query codes and key codes, int32[2, 2048, 8] each (eight subspaces), and a table f32[8, 256, 256] of
  codeword-to-codeword distances per subspace.  The result, f32[2, 2048, 2048], is at (b, I, j) the sum over the
  subspaces s of table[s, query (b, I)'s codeword in s, key (b, j)'s codeword in s].  A code word selects its codeword by
  wrapping (a negative word has 256 added) and clamping into [0, 255].

  The reference gathers the eight entries and adds them up from zero; its gather clamps the wrapped words (Reference).
  The kernel clamps the wrapped words on the host, turns each code into a row of zeros and ones, and selects table rows
  and columns by matrix products: a product with a row that is 1 at one position and 0 elsewhere picks one entry, since
  0 · x = 0 and 1 · x = x for every extended real x (Tiles, Block).  It does this once with the table and once with the
  table minus the table, and adds the two: under the precondition every table entry is a real number (Finite), so the
  second part is a sum of zeros (Whole).  Both results are the same function of the arguments (Spec).

  The kernel over the extended reals is the word-level kernel's own text read there, with nothing rewritten, so the
  fourth conjunct is `True`.
-/
import proofs.«418404_j28690381537807_3_alg».proof.Defs
import proofs.«418404_j28690381537807_3_alg».proof.Proof.Gen.Kernel
import proofs.«418404_j28690381537807_3_alg».proof.Proof.Gen.Kernel.Skeleton
import proofs.«418404_j28690381537807_3_alg».proof.Proof.Gen.Kernel.Launch
import proofs.«418404_j28690381537807_3_alg».proof.Proof.Gen.Kernel.Points
import proofs.«418404_j28690381537807_3_alg».proof.Proof.Gen.Kernel.Frame
import proofs.«418404_j28690381537807_3_alg».proof.Proof.Gen.KernelIdeal
import proofs.«418404_j28690381537807_3_alg».proof.Proof.Gen.KernelIdeal.Skeleton
import proofs.«418404_j28690381537807_3_alg».proof.Proof.Gen.KernelIdeal.Launch
import proofs.«418404_j28690381537807_3_alg».proof.Proof.Gen.KernelIdeal.Points
import proofs.«418404_j28690381537807_3_alg».proof.Proof.Gen.KernelIdeal.Frame
import proofs.«418404_j28690381537807_3_alg».proof.Proof.Gen.KernelIdeal.Value
import proofs.«418404_j28690381537807_3_alg».proof.Proof.Gen.ReferenceIdeal
import proofs.«418404_j28690381537807_3_alg».proof.Proof.Gen.ReferenceIdeal.Run
import proofs.«418404_j28690381537807_3_alg».proof.Proof.Gen.ReferenceIdeal.Read
import proofs.«418404_j28690381537807_3_alg».proof.Proof.Gen.Pre_finite_inputs
import proofs.«418404_j28690381537807_3_alg».proof.Proof.Whole
import proofs.«418404_j28690381537807_3_alg».proof.Proof.Reference
import proofs.«418404_j28690381537807_3_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel over the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, with a table of real numbers, both programs end with the summed table
    look-ups of the arguments as their result. -/
theorem algebraic : Cert.algebraic_KernelIdeal_ReferenceIdeal := by
  intro m ρ m' ρ' hpre hagree
  have hfin : ∀ (c : Dev Cert.KernelIdeal.nD) (y : Cert.KernelIdeal.S8x256x256.Idx),
      ∃ x : ℝ, Cert.KernelIdeal.Entry.table m c y = (x : EReal) :=
    fun c y => Cert.Finite.table_real _ _ _ (hpre c) y
  refine ⟨fun c => Cert.Spec.pairSum (Cert.KernelIdeal.Entry.qcodes m c) (Cert.KernelIdeal.Entry.kcodes m c)
    (Cert.KernelIdeal.Entry.table m c), Cert.KernelIdeal.Whole.run m ρ hfin, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v26_eq, Cert.ReferenceIdeal.RefValue.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
